-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x96x224x224 : Shape := ⟨4, ![2, 96, 224, 224]⟩
abbrev S96x864 : Shape := ⟨2, ![96, 864]⟩
abbrev S_ : Shape := ⟨0, ![]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel
  bcast_S_S96x864 : S_.BroadcastsInDim S96x864 (![] : Fin 0 → Fin S96x864.rank)
  reducesTo_S96x864_S_d0_1 : S96x864.ReducesTo [0, 1] S_

variable [Facts]

def fn {F : FTy → Type} [FloatOps F] (main_arg0 : FVec F S2x96x224x224 .f32) (main_arg1 : FVec F S96x864 .f32) (main_arg2 : FVec F S96x864 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S96x864 .f32 := Host.absf main_arg1
  let main_cst_0 : FVec F S_ .f32 := constant S_ .f32 0x7F800000#32
  let main_v5 : FVec F S96x864 .f32 := broadcastInDim S96x864 ![] bcast_S_S96x864 main_cst_0
  let main_v6 : IVec S96x864 1 := cmpf .olt main_v4 main_v5
  let main_c_1 : IVec S_ 1 := constantI S_ 1 1#1
  let main_v7 : IVec S_ 1 := (fun x v => Host.reduce IntOp.andi x v reducesTo_S96x864_S_d0_1 h_S_) main_v6 main_c_1
  let main_v8 : IVec S_ 1 := andi main_v3 main_v7
  let main_v9 : FVec F S96x864 .f32 := Host.absf main_arg2
  let main_cst_2 : FVec F S_ .f32 := constant S_ .f32 0x7F800000#32
  let main_v10 : FVec F S96x864 .f32 := broadcastInDim S96x864 ![] bcast_S_S96x864 main_cst_2
  let main_v11 : IVec S96x864 1 := cmpf .olt main_v9 main_v10
  let main_c_3 : IVec S_ 1 := constantI S_ 1 1#1
  let main_v12 : IVec S_ 1 := (fun x v => Host.reduce IntOp.andi x v reducesTo_S96x864_S_d0_1 h_S_) main_v11 main_c_3
  let main_v13 : IVec S_ 1 := andi main_v8 main_v12
  main_v13
-- ==== Kernel.lean ====
abbrev S2x96x224x224 : Shape := ⟨4, ![2, 96, 224, 224]⟩
abbrev S96x864 : Shape := ⟨2, ![96, 864]⟩
abbrev S2x96x50176 : Shape := ⟨3, ![2, 96, 50176]⟩
abbrev S2x96x222x222 : Shape := ⟨4, ![2, 96, 222, 222]⟩
abbrev S1x96x7168 : Shape := ⟨3, ![1, 96, 7168]⟩
abbrev S1x96x512 : Shape := ⟨3, ![1, 96, 512]⟩
abbrev S1x96x32x222 : Shape := ⟨4, ![1, 96, 32, 222]⟩
abbrev S96x7168 : Shape := ⟨2, ![96, 7168]⟩
abbrev S96x512 : Shape := ⟨2, ![96, 512]⟩
abbrev S96x7680 : Shape := ⟨2, ![96, 7680]⟩
abbrev S96x7679 : Shape := ⟨2, ![96, 7679]⟩
abbrev S96x1 : Shape := ⟨2, ![96, 1]⟩
abbrev S96x7678 : Shape := ⟨2, ![96, 7678]⟩
abbrev S96x2 : Shape := ⟨2, ![96, 2]⟩
abbrev S96x7456 : Shape := ⟨2, ![96, 7456]⟩
abbrev S96x224 : Shape := ⟨2, ![96, 224]⟩
abbrev S96x7455 : Shape := ⟨2, ![96, 7455]⟩
abbrev S96x225 : Shape := ⟨2, ![96, 225]⟩
abbrev S96x7454 : Shape := ⟨2, ![96, 7454]⟩
abbrev S96x226 : Shape := ⟨2, ![96, 226]⟩
abbrev S96x7232 : Shape := ⟨2, ![96, 7232]⟩
abbrev S96x448 : Shape := ⟨2, ![96, 448]⟩
abbrev S96x7231 : Shape := ⟨2, ![96, 7231]⟩
abbrev S96x449 : Shape := ⟨2, ![96, 449]⟩
abbrev S96x7230 : Shape := ⟨2, ![96, 7230]⟩
abbrev S96x450 : Shape := ⟨2, ![96, 450]⟩
abbrev S864x7168 : Shape := ⟨2, ![864, 7168]⟩
abbrev S96x32x224 : Shape := ⟨3, ![96, 32, 224]⟩
abbrev S96x32x222 : Shape := ⟨3, ![96, 32, 222]⟩

abbrev nBuf : Space → Nat
  | .hbm => 5
  | .vmem => 8
  | .smem => 0
  | _ => 0

abbrev bufTy : (tb : Table) → Fin (tcTables nBuf tb) → BufTy
  | .hbm, ⟨0, _⟩ => ⟨S2x96x224x224, .f32⟩
  | .hbm, ⟨1, _⟩ => ⟨S96x864, .f32⟩
  | .hbm, ⟨2, _⟩ => ⟨S96x864, .f32⟩
  | .hbm, ⟨3, _⟩ => ⟨S2x96x50176, .f32⟩
  | .hbm, ⟨4, _⟩ => ⟨S2x96x222x222, .f32⟩
  | .local _ .vmem, ⟨0, _⟩ => ⟨S96x864, .f32⟩
  | .local _ .vmem, ⟨1, _⟩ => ⟨S96x864, .f32⟩
  | .local _ .vmem, ⟨2, _⟩ => ⟨S1x96x7168, .f32⟩
  | .local _ .vmem, ⟨3, _⟩ => ⟨S1x96x7168, .f32⟩
  | .local _ .vmem, ⟨4, _⟩ => ⟨S1x96x512, .f32⟩
  | .local _ .vmem, ⟨5, _⟩ => ⟨S1x96x512, .f32⟩
  | .local _ .vmem, ⟨6, _⟩ => ⟨S1x96x32x222, .f32⟩
  | .local _ .vmem, ⟨7, _⟩ => ⟨S1x96x32x222, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.muli c14_i32 arg1
  let c14_i32_0 : BitVec 32 := 14#32
  let v1 : BitVec 32 := Scalar.addi v0 c14_i32_0
  let c97_i32 : BitVec 32 := 97#32
  let v2 : BitVec 32 := Scalar.minsi v1 c97_i32
  let c0_i32 : BitVec 32 := 0#32
  let c0_i32_1 : BitVec 32 := 0#32
  ![arg0.toNat, c0_i32.toNat, v2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S96x864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S96x864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x96x7168 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x32x222 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x96x224x224_S2x96x50176 : S2x96x224x224.ShapeCasts S2x96x50176
  inb_S96x864_S96x864_0_0 : ∀ a, (![0, 0] : Fin 2 → Nat) a + S96x864.size a ≤ S96x864.size a
  h_S96x864 : 0 < S96x864.numel
  bitsLt_bf16_f32 : FTy.bits .bf16 < FTy.bits .f32
  inb_S1x96x7168_S1x96x7168_0_0_0 : ∀ a, (![0, 0, 0] : Fin 3 → Nat) a + S1x96x7168.size a ≤ S1x96x7168.size a
  h_S1x96x7168 : 0 < S1x96x7168.numel
  shapeCasts_S1x96x7168_S96x7168 : S1x96x7168.ShapeCasts S96x7168
  inb_S1x96x512_S1x96x512_0_0_0 : ∀ a, (![0, 0, 0] : Fin 3 → Nat) a + S1x96x512.size a ≤ S1x96x512.size a
  h_S1x96x512 : 0 < S1x96x512.numel
  shapeCasts_S1x96x512_S96x512 : S1x96x512.ShapeCasts S96x512
  concatenates_S96x7168_S96x512_S96x7680_d1 : Shape.Concatenates [S96x7168, S96x512] S96x7680 1
  slices_S96x7680_o0_0_S96x7168 : S96x7680.Slices ![0, 0] S96x7168
  slices_S96x7680_o0_1_S96x7679 : S96x7680.Slices ![0, 1] S96x7679
  slices_S96x7680_o0_0_S96x1 : S96x7680.Slices ![0, 0] S96x1
  concatenates_S96x7679_S96x1_S96x7680_d1 : Shape.Concatenates [S96x7679, S96x1] S96x7680 1
  slices_S96x7680_o0_2_S96x7678 : S96x7680.Slices ![0, 2] S96x7678
  slices_S96x7680_o0_0_S96x2 : S96x7680.Slices ![0, 0] S96x2
  concatenates_S96x7678_S96x2_S96x7680_d1 : Shape.Concatenates [S96x7678, S96x2] S96x7680 1
  slices_S96x7680_o0_224_S96x7456 : S96x7680.Slices ![0, 224] S96x7456
  slices_S96x7680_o0_0_S96x224 : S96x7680.Slices ![0, 0] S96x224
  concatenates_S96x7456_S96x224_S96x7680_d1 : Shape.Concatenates [S96x7456, S96x224] S96x7680 1
  slices_S96x7680_o0_225_S96x7455 : S96x7680.Slices ![0, 225] S96x7455
  slices_S96x7680_o0_0_S96x225 : S96x7680.Slices ![0, 0] S96x225
  concatenates_S96x7455_S96x225_S96x7680_d1 : Shape.Concatenates [S96x7455, S96x225] S96x7680 1
  slices_S96x7680_o0_226_S96x7454 : S96x7680.Slices ![0, 226] S96x7454
  slices_S96x7680_o0_0_S96x226 : S96x7680.Slices ![0, 0] S96x226
  concatenates_S96x7454_S96x226_S96x7680_d1 : Shape.Concatenates [S96x7454, S96x226] S96x7680 1
  slices_S96x7680_o0_448_S96x7232 : S96x7680.Slices ![0, 448] S96x7232
  slices_S96x7680_o0_0_S96x448 : S96x7680.Slices ![0, 0] S96x448
  concatenates_S96x7232_S96x448_S96x7680_d1 : Shape.Concatenates [S96x7232, S96x448] S96x7680 1
  slices_S96x7680_o0_449_S96x7231 : S96x7680.Slices ![0, 449] S96x7231
  slices_S96x7680_o0_0_S96x449 : S96x7680.Slices ![0, 0] S96x449
  concatenates_S96x7231_S96x449_S96x7680_d1 : Shape.Concatenates [S96x7231, S96x449] S96x7680 1
  slices_S96x7680_o0_450_S96x7230 : S96x7680.Slices ![0, 450] S96x7230
  slices_S96x7680_o0_0_S96x450 : S96x7680.Slices ![0, 0] S96x450
  concatenates_S96x7230_S96x450_S96x7680_d1 : Shape.Concatenates [S96x7230, S96x450] S96x7680 1
  concatenates_S96x7168_S96x7168_S96x7168_S96x7168_S96x7168_S96x7168_S96x7168_S96x7168_S96x7168_S864x7168_d0 : Shape.Concatenates [S96x7168, S96x7168, S96x7168, S96x7168, S96x7168, S96x7168, S96x7168, S96x7168, S96x7168] S864x7168 0
  shapeCasts_S96x7168_S96x32x224 : S96x7168.ShapeCasts S96x32x224
  slices_S96x32x224_o0_0_0_S96x32x222 : S96x32x224.Slices ![0, 0, 0] S96x32x222
  inb_S1x96x32x222_S1x96x32x222_0_0_0_0 : ∀ a, (![0, 0, 0, 0] : Fin 4 → Nat) a + S1x96x32x222.size a ≤ S1x96x32x222.size a
  h_S1x96x32x222 : 0 < S1x96x32x222.numel
  shapeCasts_S1x96x32x222_S96x32x222 : S1x96x32x222.ShapeCasts S96x32x222
  shapeCasts_S96x32x222_S1x96x32x222 : S96x32x222.ShapeCasts S1x96x32x222
  dot_S96x864_S864x7168_S96x7168_1_0_0_1_n_n_wf : DotDims.WF S96x864 S864x7168 S96x7168 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S96x864.size a ≤ S96x864.size a
  hwx0_0 : ∀ i : grid0.Coords, EltTy.bits .f32 = 32 ∨ (Rect.block (s := S96x864) S96x864.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x864.size a ≤ S96x864.size a
  hwx0_1 : ∀ i : grid0.Coords, EltTy.bits .f32 = 32 ∨ (Rect.block (s := S96x864) S96x864.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x96x7168.size a ≤ S2x96x50176.size a
  hwx0_2 : ∀ i : grid0.Coords, EltTy.bits .f32 = 32 ∨ (Rect.block (s := S2x96x50176) S1x96x7168.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x96x512.size a ≤ S2x96x50176.size a
  hwx0_3 : ∀ i : grid0.Coords, EltTy.bits .f32 = 32 ∨ (Rect.block (s := S2x96x50176) S1x96x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x96x32x222.size a < S2x96x222x222.size a
  hwx0_4 : ∀ i : grid0.Coords, EltTy.bits .f32 = 32 ∨ (Rect.unit (s := S2x96x222x222) (fun a => cc0_transform_4 i a * S1x96x32x222.size a) (fun a => (Pipeline.Clip.of (cc0_transform_4 i a) (S1x96x32x222.size a) (S2x96x222x222.size a)).extent (S1x96x32x222.size a)) fun a => Pipeline.Clip.inb (Pipeline.Clip.ok_of (hstart0_4 i a))).WholeWords (EltTy.packing .f32)
  hwxs0_4 : ∀ i : grid0.Coords, EltTy.bits .f32 = 32 ∨ (Rect.unit (s := S1x96x32x222) (fun _ => 0) (fun a => (Pipeline.Clip.of (cc0_transform_4 i a) (S1x96x32x222.size a) (S2x96x222x222.size a)).extent (S1x96x32x222.size a)) fun a => (Nat.zero_add _).trans_le (Pipeline.Clip.extent_le (Pipeline.Clip.ok_of (hstart0_4 i a)))).WholeWords (EltTy.packing .f32)

variable [Facts₀]

def dot_S96x864_S864x7168_S96x7168_1_0_0_1_n_n : DotDims S96x864 S864x7168 S96x7168 where
  lhsContracting := [1]
  rhsContracting := [0]
  lhsNonContracting := [0]
  rhsNonContracting := [1]
  lhsBatch := []
  rhsBatch := []
  wf := dot_S96x864_S864x7168_S96x7168_1_0_0_1_n_n_wf

abbrev win0_0 : Pipeline.Window sig grid0 :=
  Pipeline.Window.ofSpec (Memref.whole main_arg1) S96x864.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x864.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x96x7168.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x96x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S1x96x32x222.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x96x224x224 : Shape := ⟨4, ![2, 96, 224, 224]⟩
abbrev S96x864 : Shape := ⟨2, ![96, 864]⟩
abbrev S2x96x222x222 : Shape := ⟨4, ![2, 96, 222, 222]⟩
abbrev S2x864x222x222 : Shape := ⟨4, ![2, 864, 222, 222]⟩
abbrev S864x2x222x222 : Shape := ⟨4, ![864, 2, 222, 222]⟩
abbrev S864x98568 : Shape := ⟨2, ![864, 98568]⟩
abbrev S96x98568 : Shape := ⟨2, ![96, 98568]⟩
abbrev S96x2x222x222 : Shape := ⟨4, ![96, 2, 222, 222]⟩

abbrev nBuf : Space → Nat
  | .hbm => 19
  | .vmem => 0
  | .smem => 0
  | _ => 0

abbrev bufTy : (tb : Table) → Fin (tcTables nBuf tb) → BufTy
  | .hbm, ⟨0, _⟩ => ⟨S2x96x224x224, .f32⟩
  | .hbm, ⟨1, _⟩ => ⟨S96x864, .f32⟩
  | .hbm, ⟨2, _⟩ => ⟨S96x864, .f32⟩
  | .hbm, ⟨3, _⟩ => ⟨S2x96x222x222, .f32⟩
  | .hbm, ⟨4, _⟩ => ⟨S2x96x222x222, .f32⟩
  | .hbm, ⟨5, _⟩ => ⟨S2x96x222x222, .f32⟩
  | .hbm, ⟨6, _⟩ => ⟨S2x96x222x222, .f32⟩
  | .hbm, ⟨7, _⟩ => ⟨S2x96x222x222, .f32⟩
  | .hbm, ⟨8, _⟩ => ⟨S2x96x222x222, .f32⟩
  | .hbm, ⟨9, _⟩ => ⟨S2x96x222x222, .f32⟩
  | .hbm, ⟨10, _⟩ => ⟨S2x96x222x222, .f32⟩
  | .hbm, ⟨11, _⟩ => ⟨S2x96x222x222, .f32⟩
  | .hbm, ⟨12, _⟩ => ⟨S2x864x222x222, .f32⟩
  | .hbm, ⟨13, _⟩ => ⟨S864x2x222x222, .f32⟩
  | .hbm, ⟨14, _⟩ => ⟨S864x98568, .f32⟩
  | .hbm, ⟨15, _⟩ => ⟨S96x864, .f32⟩
  | .hbm, ⟨16, _⟩ => ⟨S96x98568, .f32⟩
  | .hbm, ⟨17, _⟩ => ⟨S96x2x222x222, .f32⟩
  | .hbm, ⟨18, _⟩ => ⟨S2x96x222x222, .f32⟩
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]

class Facts₀ : Prop where
  slices_S2x96x224x224_S2x96x222x222_0_0_0_0 : S2x96x224x224.Slices ![0, 0, 0, 0] S2x96x222x222
  slices_S2x96x224x224_S2x96x222x222_0_0_0_1 : S2x96x224x224.Slices ![0, 0, 0, 1] S2x96x222x222
  slices_S2x96x224x224_S2x96x222x222_0_0_0_2 : S2x96x224x224.Slices ![0, 0, 0, 2] S2x96x222x222
  slices_S2x96x224x224_S2x96x222x222_0_0_1_0 : S2x96x224x224.Slices ![0, 0, 1, 0] S2x96x222x222
  slices_S2x96x224x224_S2x96x222x222_0_0_1_1 : S2x96x224x224.Slices ![0, 0, 1, 1] S2x96x222x222
  slices_S2x96x224x224_S2x96x222x222_0_0_1_2 : S2x96x224x224.Slices ![0, 0, 1, 2] S2x96x222x222
  slices_S2x96x224x224_S2x96x222x222_0_0_2_0 : S2x96x224x224.Slices ![0, 0, 2, 0] S2x96x222x222
  slices_S2x96x224x224_S2x96x222x222_0_0_2_1 : S2x96x224x224.Slices ![0, 0, 2, 1] S2x96x222x222
  slices_S2x96x224x224_S2x96x222x222_0_0_2_2 : S2x96x224x224.Slices ![0, 0, 2, 2] S2x96x222x222
  concatenates_S2x96x222x222_S2x96x222x222_S2x96x222x222_S2x96x222x222_S2x96x222x222_S2x96x222x222_S2x96x222x222_S2x96x222x222_S2x96x222x222_S2x864x222x222_d1 : Shape.Concatenates [S2x96x222x222, S2x96x222x222, S2x96x222x222, S2x96x222x222, S2x96x222x222, S2x96x222x222, S2x96x222x222, S2x96x222x222, S2x96x222x222] S2x864x222x222 1
  transposes_S2x864x222x222_S864x2x222x222_1_0_2_3 : S2x864x222x222.Transposes [1, 0, 2, 3] S864x2x222x222
  shapeCasts_S864x2x222x222_S864x98568 : S864x2x222x222.ShapeCasts S864x98568
  shapeCasts_S96x98568_S96x2x222x222 : S96x98568.ShapeCasts S96x2x222x222
  transposes_S96x2x222x222_S2x96x222x222_1_0_2_3 : S96x2x222x222.Transposes [1, 0, 2, 3] S2x96x222x222
  dot_S96x864_S864x98568_S96x98568_1_0_0_1_n_n_wf : DotDims.WF S96x864 S864x98568 S96x98568 [1] [0] [0] [1] [] []

variable [Facts₀]

def dot_S96x864_S864x98568_S96x98568_1_0_0_1_n_n : DotDims S96x864 S864x98568 S96x98568 where
  lhsContracting := [1]
  rhsContracting := [0]
  lhsNonContracting := [0]
  rhsNonContracting := [1]
  lhsBatch := []
  rhsBatch := []
  wf := dot_S96x864_S864x98568_S96x98568_1_0_0_1_n_n_wf

class Facts : Prop extends Facts₀ where

variable [Facts]
-- ==== Proof.KIFrame.lean ====
/-
  The frame of `KernelIdeal`, and its run read at the result array: a 3x3 valid correlation computed tile by tile on a
  grid of 2 x 7 points. Each point stages the weights and the mask whole (fetched once), a main block of 7168 words
  of every channel's row-major plane, a tail block of 512 words of the SAME plane array (the next 512 words, or at
  the last row block the array's last 512: the index map clamps), and writes back a tile of 32 output rows, the last
  row block's tile cut at the array's end (222 = 6·32 + 30 rows). The body is three loads of inputs, one pure term,
  a dead load of the result's buffer and one store of the whole buffer.

  The plane array is read through two windows, so the buffers behind the windows' arrays are four, not five: the
  launch deals the plane's points-to in halves to the two windows (`hsplit`) and is otherwise the library's launch of
  a region whose kernel has no semaphore of its own. The proof data name what every staging buffer holds after the
  body at each point: an input its block, the result's `out0_4` of the four blocks.
-/
import proofs.«180027_g33251636806221_cont_8to1_b_887_19_alg».proof.Proof.Gen.KernelIdeal.Launch
import proofs.«180027_g33251636806221_cont_8to1_b_887_19_alg».proof.Proof.Gen.KernelIdeal.Skeleton
import proofs.«180027_g33251636806221_cont_8to1_b_887_19_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the image reshaped to a row-major plane per channel. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The body's accesses and what it leaves in the result's buffer -/

abbrev r0_0 : Rect S96x864 := Rect.unit (s := S96x864) ![0, 0] S96x864.size inb_S96x864_S96x864_0_0
abbrev r0_1 : Rect S1x96x7168 := Rect.unit (s := S1x96x7168) ![0, 0, 0] S1x96x7168.size inb_S1x96x7168_S1x96x7168_0_0_0
abbrev r0_2 : Rect S1x96x512 := Rect.unit (s := S1x96x512) ![0, 0, 0] S1x96x512.size inb_S1x96x512_S1x96x512_0_0_0
abbrev r0_3 : Rect S1x96x32x222 := Rect.unit (s := S1x96x32x222) ![0, 0, 0, 0] S1x96x32x222.size inb_S1x96x32x222_S1x96x32x222_0_0_0_0

/-- What the body leaves in the result's staging buffer, from the four input blocks: its one store, of the tile
    the weights' product makes with the slab's patch columns. -/
def out0_4 (x0 x1 : Vec F S96x864 .f32) (x2 : Vec F S1x96x7168 .f32) (x3 : Vec F S1x96x512 .f32) : Vec F S1x96x32x222 .f32 :=
  View.canon [⟨r0_3, k0_pay1 (k0_pay2 (View.ld x0 r0_0) (View.ld x1 r0_0) (View.ld x2 r0_1) (View.ld x3 r0_2))⟩]

/-- The one store is of the whole buffer. -/
theorem cover0_4 (p0 : Vec F S1x96x32x222 .f32) (y : S1x96x32x222.Idx) :
    ∃ pc ∈ ([⟨r0_3, p0⟩] : List (View.Piece (Elt F) S1x96x32x222 .f32)), y ∈ pc.1.set :=
  View.cover_of_tiled [⟨r0_3, p0⟩] S1x96x32x222.size (by rfl) y

set_option maxHeartbeats 1000000 in
/-- The kernel body on whole staging memrefs, the inputs' at contents `xW` and the result's at anything, runs to the
    continuation holding the inputs' as they were and the result's at `out0_4` of the inputs'. -/
theorem sound_kernel (c : Dev nD) (E : Set ℕ) (i : grid0.Coords)
    (arg2 : Memref sig .tc .vmem S96x864 .f32) (harg2 : arg2.IsWhole) (arg3 : Memref sig .tc .vmem S96x864 .f32) (harg3 : arg3.IsWhole)
    (arg4 : Memref sig .tc .vmem S1x96x7168 .f32) (harg4 : arg4.IsWhole) (arg5 : Memref sig .tc .vmem S1x96x512 .f32) (harg5 : arg5.IsWhole)
    (arg6 : Memref sig .tc .vmem S1x96x32x222 .f32) (harg6 : arg6.IsWhole)
    (x0 x1 : Vec F S96x864 .f32) (x2 : Vec F S1x96x7168 .f32) (x3 : Vec F S1x96x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__conv_kernel i arg2 harg2 arg3 harg3 arg4 harg4 arg5 harg5 arg6 harg6) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The windows' blocks and the proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the one pipeline on core `c`: the arrays as the region finds them; after the body at point `t`
    each input's buffer at its block and the result's at `out0_4` of the four blocks; no invariant; nothing owed. The
    plane array is read by two windows, the main block's and the tail block's: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := iprop(emp)
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- An input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, the result's anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The launch -/

/-- The buffers behind the windows' arrays, each whole at the region-entry contents, are the proof data's arrays:
    the plane array, which the main-block window and the tail-block window both read, is held half by each. -/
theorem hsplit (c : Dev nD) :
    (Pipeline.arrBufs spec0 c (V m c) : sProp 𝕄) ⊢ (dats m 0 c).arrays ((dats m 0 c).arrAt · 0) := by
  have e : (Pipeline.arrBufs spec0 c (V m c) : sProp 𝕄)
      = iprop((((c : Thread nD τ).loc main_arg1) ↦{fullShare} V m c main_arg1) ∗ (((c : Thread nD τ).loc main_arg2) ↦{fullShare} V m c main_arg2)
          ∗ (((c : Thread nD τ).loc main_v0) ↦{fullShare} V m c main_v0) ∗ (((c : Thread nD τ).loc main_v1) ↦{fullShare} V m c main_v1)) :=
    BI.bigSep_eq_bigSepL_of_eq [main_arg1, main_arg2, main_v0, main_v1] (by decide) (by decide) _
  rw [e]
  unfold Dat.arrays
  rw [bigSep_W0]
  iintro ⟨H1, H2, H0, Ho⟩
  ihave H0' := (pointsTo_share (PosShare.mem_left_op_right fullShare)).1 $$ H0
  icases H0' with ⟨H0l, H0r⟩
  isplitl [H1]
  · rw [(arr_whole0 0).set_eq_univ]; iexact H1
  isplitl [H2]
  · rw [(arr_whole0 1).set_eq_univ]; iexact H2
  isplitl [H0l]
  · rw [(arr_whole0 2).set_eq_univ]; iexact H0l
  isplitl [H0r]
  · rw [(arr_whole0 3).set_eq_univ]; iexact H0r
  · rw [(arr_whole0 4).set_eq_univ]; iexact Ho

set_option backward.isDefEq.respectTransparency.types false in
/-- At the compiled mesh, for any values, from any memory with zero counters: every weakly fair execution of @main
    terminates, and every final state has every array of the pipeline at what the write-backs leave and every other
    unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-! ## The argument arrays and the result, read off the run -/

/-- The reshape before the region writes none of the argument arrays: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-- The run, read at the result array and the three argument arrays: the result holds what the fourteen write-backs
    leave, the image is no window's array and bypasses the region, the weights and the mask are inputs. -/
theorem run_result : θ_run defs (onTc (τ := τ) (main (F := F))) ⟨m, fun _ => 0, ρ⟩ (fun r => ∀ c : Dev nD,
      r.2.mem ((c.tc : Thread nD τ).loc main_v1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 4,
      ((h c).2 main_arg0 (Pipeline.mem_restRefs_of main_arg0 rfl (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩) (run_main m ρ)

/-- The frame: the program runs to the end and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand

end
-- ==== Proof.ConvSpec.lean ====
/-
  The value both programs compute, stated once over literal shapes and imported by no program:
  a 3x3 "valid" correlation of a 96-channel image with a masked dense weight. For an output pixel (b, f, r, c)

      conv x kv km (b, f, r, c) = Σ_{k < 864} (kv[f, k] · km[f, k]) · x[b, k mod 96, r + k / 288, c + (k / 96) mod 3]

  — patch column k = (3 i + j) · 96 + ch carries tap (i, j) = (k / 288, (k / 96) mod 3) of channel ch = k mod 96.
  Also the flat slab a grid point of the kernel works on: 7168 words of a channel's row-major image followed by a
  512-word tail (`flat`), and the kernel tile's entry as a sum over the patch columns of the slab (`tileAt`).
-/
import Idealize.ShloMosaic.PureOps.Ideal
import Idealize.ShloMosaic.Lib.ValueIdx

noncomputable section

namespace Cert.Conv

open Idealize.ShloMosaic Idealize.ShloMosaic.ValueIdx

abbrev SX : Shape := ⟨4, ![2, 96, 224, 224]⟩
abbrev SW : Shape := ⟨2, ![96, 864]⟩
abbrev SO : Shape := ⟨4, ![2, 96, 222, 222]⟩
abbrev SM : Shape := ⟨3, ![1, 96, 7168]⟩
abbrev SH : Shape := ⟨3, ![1, 96, 512]⟩
abbrev ST : Shape := ⟨3, ![96, 32, 222]⟩

/-- The channel of patch column `k`. -/
def chan (k : Fin 864) : Fin 96 := ⟨k.val % 96, Nat.mod_lt _ (by decide)⟩
/-- The tap's row offset, 0, 1 or 2. -/
def tapI (k : Fin 864) : Nat := k.val / 288
/-- The tap's column offset, 0, 1 or 2. -/
def tapJ (k : Fin 864) : Nat := k.val / 96 % 3

theorem tapI_le (k : Fin 864) : tapI k ≤ 2 := by have := k.isLt; unfold tapI; omega
theorem tapJ_le (k : Fin 864) : tapJ k ≤ 2 := by unfold tapJ; omega

/-- The image element tap `k` reads for output pixel (b, ·, r, c). -/
def xIdx (b : Fin 2) (r c : Fin 222) (k : Fin 864) : SX.Idx :=
  ix4 b (chan k) ⟨r.val + tapI k, by have := tapI_le k; have := r.isLt; omega⟩ ⟨c.val + tapJ k, by have := tapJ_le k; have := c.isLt; omega⟩

/-- The correlation at explicit coordinates. -/
def convAt (x : SX.Idx → EReal) (kv km : SW.Idx → EReal) (b : Fin 2) (f : Fin 96) (r c : Fin 222) : EReal :=
  ∑ k : Fin 864, (kv (ix2 f k) * km (ix2 f k)) * x (xIdx b r c k)

/-- The whole result array. -/
def conv (x : SX.Idx → EReal) (kv km : SW.Idx → EReal) : SO.Idx → EReal := fun o =>
  convAt x kv km ⟨(o 0).val, (o 0).isLt⟩ ⟨(o 1).val, (o 1).isLt⟩ ⟨(o 2).val, (o 2).isLt⟩ ⟨(o 3).val, (o 3).isLt⟩

/-- A grid point's flat slab: word `q` of channel `ch`, the main block's 7168 words then the tail block's 512
    (zero past them: never read). -/
def flat (xm : SM.Idx → EReal) (xh : SH.Idx → EReal) (ch : Fin 96) (q : Nat) : EReal :=
  if h : q < 7168 then xm (ix3 (0 : Fin 1) ch ⟨q, h⟩)
  else if h' : q - 7168 < 512 then xh (ix3 (0 : Fin 1) ch ⟨q - 7168, h'⟩) else 0

/-- The kernel tile's entry (f, rl, c): the masked weights' row `f` against the slab's patch column of flat
    position `rl · 224 + c`, tap `k` read `224 · tapI k + tapJ k` words further on. -/
def tileAt (w0 w1 : SW.Idx → EReal) (xm : SM.Idx → EReal) (xh : SH.Idx → EReal) (f : Fin 96) (rl : Fin 32) (c : Fin 222) : EReal :=
  ∑ k : Fin 864, (w0 (ix2 f k) * w1 (ix2 f k)) * flat xm xh (chan k) (rl.val * 224 + c.val + 224 * tapI k + tapJ k)

end Cert.Conv

end
-- ==== Proof.ConvTile.lean ====
/-
  The kernel's tile entry equals the correlation: at a grid point (bi, ri) the flat slab (7168 main words followed
  by a 512-word tail) of channel ch holds, at word rl·224 + c + 224·i + j, the image element
  x[bi, ch, 32·ri + rl + i, c + j] whenever the output row 32·ri + rl is below 222 and i, j ≤ 2. Hence the two
  sums over the patch columns agree term by term.
-/
import proofs.«180027_g33251636806221_cont_8to1_b_887_19_alg».proof.Proof.ConvSpec
import Idealize.ShloMosaic.PureOps.Ideal
import Idealize.ShloMosaic.Lib.ValueIdx
import Mathlib.Algebra.BigOperators.Group.Finset.Basic

noncomputable section

namespace Cert.Conv

open Idealize.ShloMosaic Idealize.ShloMosaic.ValueIdx

abbrev SF : Shape := ⟨3, ![2, 96, 50176]⟩

/-- A slab word in the main block is the row-major image word `ri · 7168 + q`. -/
theorem flat_main (x : SX.Idx → EReal) (xf : SF.Idx → EReal) (xm : SM.Idx → EReal) (xh : SH.Idx → EReal)
    (bi : Fin 2) (ri : Fin 7)
    (hx : ∀ (b : Fin 2) (ch : Fin 96) (h w : Fin 224) (p : Fin 50176), p.val = h.val * 224 + w.val → xf (ix3 b ch p) = x (ix4 b ch h w))
    (hm : ∀ (ch : Fin 96) (q : Fin 7168) (p : Fin 50176), p.val = ri.val * 7168 + q.val → xm (ix3 (0 : Fin 1) ch q) = xf (ix3 bi ch p))
    (ch : Fin 96) (q : Nat) (h w : Fin 224) (hq : q < 7168) (hqe : ri.val * 7168 + q = h.val * 224 + w.val) :
    flat xm xh ch q = x (ix4 bi ch h w) := by
  have hri := ri.isLt
  unfold flat
  rw [dif_pos hq]
  rw [hm ch ⟨q, hq⟩ ⟨ri.val * 7168 + q, by omega⟩ rfl]
  exact hx bi ch h w _ hqe

/-- A slab word in the tail block, at a grid point other than the last, is the row-major image word
    `ri · 7168 + q` (the tail is the next 512 words). -/
theorem flat_tail (x : SX.Idx → EReal) (xf : SF.Idx → EReal) (xm : SM.Idx → EReal) (xh : SH.Idx → EReal)
    (bi : Fin 2) (ri : Fin 7)
    (hx : ∀ (b : Fin 2) (ch : Fin 96) (h w : Fin 224) (p : Fin 50176), p.val = h.val * 224 + w.val → xf (ix3 b ch p) = x (ix4 b ch h w))
    (hh : ∀ (ch : Fin 96) (q : Fin 512) (p : Fin 50176), p.val = min (14 * ri.val + 14) 97 * 512 + q.val → xh (ix3 (0 : Fin 1) ch q) = xf (ix3 bi ch p))
    (ch : Fin 96) (q : Nat) (h w : Fin 224) (hq : ¬ q < 7168) (hq' : q - 7168 < 512) (hri : ri.val < 6)
    (hqe : ri.val * 7168 + q = h.val * 224 + w.val) :
    flat xm xh ch q = x (ix4 bi ch h w) := by
  unfold flat
  rw [dif_neg hq, dif_pos hq']
  have hmin : min (14 * ri.val + 14) 97 = 14 * ri.val + 14 := Nat.min_eq_left (by omega)
  rw [hh ch ⟨q - 7168, hq'⟩ ⟨ri.val * 7168 + q, by omega⟩ (by rw [hmin]; show ri.val * 7168 + q = (14 * ri.val + 14) * 512 + (q - 7168); omega)]
  exact hx bi ch h w _ hqe

/-- The slab word tap `k` reads for tile entry (·, rl, c) is the image element the correlation reads. -/
theorem flat_eq (x : SX.Idx → EReal) (xf : SF.Idx → EReal) (xm : SM.Idx → EReal) (xh : SH.Idx → EReal)
    (bi : Fin 2) (ri : Fin 7)
    (hx : ∀ (b : Fin 2) (ch : Fin 96) (h w : Fin 224) (p : Fin 50176), p.val = h.val * 224 + w.val → xf (ix3 b ch p) = x (ix4 b ch h w))
    (hm : ∀ (ch : Fin 96) (q : Fin 7168) (p : Fin 50176), p.val = ri.val * 7168 + q.val → xm (ix3 (0 : Fin 1) ch q) = xf (ix3 bi ch p))
    (hh : ∀ (ch : Fin 96) (q : Fin 512) (p : Fin 50176), p.val = min (14 * ri.val + 14) 97 * 512 + q.val → xh (ix3 (0 : Fin 1) ch q) = xf (ix3 bi ch p))
    (rl : Fin 32) (c : Fin 222) (hr : 32 * ri.val + rl.val < 222) (k : Fin 864) :
    flat xm xh (chan k) (rl.val * 224 + c.val + 224 * tapI k + tapJ k)
      = x (xIdx bi ⟨32 * ri.val + rl.val, hr⟩ c k) := by
  have hi := tapI_le k
  have hj := tapJ_le k
  have hri := ri.isLt
  have hrl := rl.isLt
  have hc := c.isLt
  unfold xIdx
  by_cases hq : rl.val * 224 + c.val + 224 * tapI k + tapJ k < 7168
  · exact flat_main x xf xm xh bi ri hx hm (chan k) _ _ _ hq (by show _ = (32 * ri.val + rl.val + tapI k) * 224 + (c.val + tapJ k); omega)
  · have hri6 : ri.val < 6 := by omega
    exact flat_tail x xf xm xh bi ri hx hh (chan k) _ _ _ hq (by omega) hri6
      (by show _ = (32 * ri.val + rl.val + tapI k) * 224 + (c.val + tapJ k); omega)

theorem tileAt_eq_convAt (x : SX.Idx → EReal) (xf : SF.Idx → EReal) (w0 w1 : SW.Idx → EReal) (xm : SM.Idx → EReal) (xh : SH.Idx → EReal)
    (bi : Fin 2) (ri : Fin 7)
    (hx : ∀ (b : Fin 2) (ch : Fin 96) (h w : Fin 224) (p : Fin 50176), p.val = h.val * 224 + w.val → xf (ix3 b ch p) = x (ix4 b ch h w))
    (hm : ∀ (ch : Fin 96) (q : Fin 7168) (p : Fin 50176), p.val = ri.val * 7168 + q.val → xm (ix3 (0 : Fin 1) ch q) = xf (ix3 bi ch p))
    (hh : ∀ (ch : Fin 96) (q : Fin 512) (p : Fin 50176), p.val = min (14 * ri.val + 14) 97 * 512 + q.val → xh (ix3 (0 : Fin 1) ch q) = xf (ix3 bi ch p))
    (f : Fin 96) (rl : Fin 32) (c : Fin 222) (hr : 32 * ri.val + rl.val < 222) :
    tileAt w0 w1 xm xh f rl c = convAt x w0 w1 bi f ⟨32 * ri.val + rl.val, hr⟩ c := by
  unfold tileAt convAt
  refine Finset.sum_congr rfl fun k _ => ?_
  rw [flat_eq x xf xm xh bi ri hx hm hh rl c hr k]

end Cert.Conv

end
-- ==== Proof.Payload.lean ====
/-
  The kernel's value at one grid point, read at an index: the tile entry (f, rl, c) of the payload is the
  masked weights' row f against the patch column of the flat slab at position rl · 224 + c.
-/
import proofs.«180027_g33251636806221_cont_8to1_b_887_19_alg».proof.Proof.Gen.KernelIdeal.Skeleton
import proofs.«180027_g33251636806221_cont_8to1_b_887_19_alg».proof.Proof.ConvSpec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The flat slab: the main block's rows followed by the tail block's rows, along the lanes. -/
def slab (v4 : Vec Ideal S1x96x7168 .f32) (v6 : Vec Ideal S1x96x512 .f32) : FVec Ideal S96x7680 .bf16 :=
  truncf .bf16 (concatenate S96x7680 1 [⟨S96x7168, shapeCast S96x7168 v4 shapeCasts_S1x96x7168_S96x7168⟩, ⟨S96x512, shapeCast S96x512 v6 shapeCasts_S1x96x512_S96x512⟩] concatenates_S96x7168_S96x512_S96x7680_d1) bitsLt_bf16_f32

theorem slab_apply_lt (v4 : Vec Ideal S1x96x7168 .f32) (v6 : Vec Ideal S1x96x512 .f32) (ch : Fin 96) (q : Fin 7680) (h : q.val < 7168) :
    slab v4 v6 (ix2 ch q) = v4 (ix3 (0 : Fin 1) ch ⟨q.val, h⟩) := by
  unfold slab
  refine (truncf_apply (ψ := .bf16) _ bitsLt_bf16_f32 _).trans ?_
  refine (concatenate_pair_apply_left (s₁ := S96x7168) (s₂ := S96x512) (1 : Fin 2) _ _ _ (ix2 ch q) rfl (ix2 ch (⟨q.val, h⟩ : Fin 7168)) ?_).trans ?_
  · intro b
    match b with
    | ⟨0, _⟩ => rfl
    | ⟨1, _⟩ => rfl
  · refine shapeCast_apply v4 _ _ (ix3 (0 : Fin 1) ch ⟨q.val, h⟩) ?_
    rw [Shape.rowMajor_val_two, Shape.rowMajor_val_three]
    show ((0 : Fin 1).val * 96 + ch.val) * 7168 + q.val = ch.val * 7168 + q.val
    simp

theorem slab_apply_ge (v4 : Vec Ideal S1x96x7168 .f32) (v6 : Vec Ideal S1x96x512 .f32) (ch : Fin 96) (q : Fin 7680) (h : 7168 ≤ q.val) :
    slab v4 v6 (ix2 ch q) = v6 (ix3 (0 : Fin 1) ch ⟨q.val - 7168, by have := q.isLt; omega⟩) := by
  unfold slab
  refine (truncf_apply (ψ := .bf16) _ bitsLt_bf16_f32 _).trans ?_
  refine (concatenate_pair_apply_right (s₁ := S96x7168) (s₂ := S96x512) (1 : Fin 2) _ _ _ (ix2 ch q) rfl rfl (ix2 ch (⟨q.val - 7168, by have := q.isLt; omega⟩ : Fin 512)) ?_ ?_).trans ?_
  · intro b hb
    match b with
    | ⟨0, _⟩ => rfl
    | ⟨1, _⟩ => exact absurd rfl hb
  · show q.val - 7168 + 7168 = q.val
    omega
  · refine shapeCast_apply v6 _ _ (ix3 (0 : Fin 1) ch ⟨q.val - 7168, by have := q.isLt; omega⟩) ?_
    rw [Shape.rowMajor_val_two, Shape.rowMajor_val_three]
    show ((0 : Fin 1).val * 96 + ch.val) * 512 + (q.val - 7168) = ch.val * 512 + (q.val - 7168)
    simp

/-- The slab at (ch, q) is word q of channel ch of the grid point's flat slab. -/
theorem slab_apply (v4 : Vec Ideal S1x96x7168 .f32) (v6 : Vec Ideal S1x96x512 .f32) (ch : Fin 96) (q : Fin 7680) :
    slab v4 v6 (ix2 ch q) = Cert.Conv.flat v4 v6 ch q.val := by
  unfold Cert.Conv.flat
  by_cases h : q.val < 7168
  · rw [dif_pos h]; exact slab_apply_lt v4 v6 ch q h
  · have h2 : q.val - 7168 < 512 := by have := q.isLt; omega
    rw [dif_neg h, dif_pos h2]; exact slab_apply_ge v4 v6 ch q (Nat.le_of_not_lt h)

/-- A bare cut of the slab's first 7168 lanes. -/
theorem cut_apply (y : FVec Ideal S96x7680 .bf16) (ch : Fin 96) (p : Fin 7168) :
    extractStridedSlice S96x7168 ![0, 0] y slices_S96x7680_o0_0_S96x7168 (ix2 ch p)
      = y (ix2 ch ⟨p.val, by have := p.isLt; omega⟩) := by
  refine extractStridedSlice_apply ![0, 0] y _ (ix2 ch p) (ix2 ch (⟨p.val, by have := p.isLt; omega⟩ : Fin 7680)) ?_
  intro a
  match a with
  | ⟨0, _⟩ => exact (Nat.zero_add _).symm
  | ⟨1, _⟩ => exact (Nat.zero_add _).symm

/-- A roll by `off` lanes to the left, cut to its first 7168 lanes: lane p reads lane p + off of the slab
    (the wrapped-around lanes are past the cut). -/
theorem roll_apply (y : FVec Ideal S96x7680 .bf16) (off n : Nat)
    (hs1 : S96x7680.Slices ![0, off] ⟨2, ![96, n]⟩) (hs2 : S96x7680.Slices ![0, 0] ⟨2, ![96, off]⟩)
    (hc : Shape.Concatenates [(⟨2, ![96, n]⟩ : Shape), ⟨2, ![96, off]⟩] S96x7680 1)
    (ch : Fin 96) (p : Fin 7168) (hn : p.val < n) (hp : p.val + off < 7680) :
    extractStridedSlice S96x7168 ![0, 0]
        (concatenate S96x7680 1 [⟨(⟨2, ![96, n]⟩ : Shape), extractStridedSlice (⟨2, ![96, n]⟩ : Shape) ![0, off] y hs1⟩,
          ⟨(⟨2, ![96, off]⟩ : Shape), extractStridedSlice (⟨2, ![96, off]⟩ : Shape) ![0, 0] y hs2⟩] hc)
        slices_S96x7680_o0_0_S96x7168 (ix2 ch p)
      = y (ix2 ch ⟨p.val + off, hp⟩) := by
  refine (cut_apply _ ch p).trans ?_
  refine (concatenate_pair_apply_left (s₁ := (⟨2, ![96, n]⟩ : Shape)) (s₂ := (⟨2, ![96, off]⟩ : Shape)) (1 : Fin 2) _ _ hc
    (ix2 ch (⟨p.val, by have := p.isLt; omega⟩ : Fin 7680)) rfl (ix2 ch (⟨p.val, hn⟩ : Fin n)) ?_).trans ?_
  · intro b
    match b with
    | ⟨0, _⟩ => rfl
    | ⟨1, _⟩ => rfl
  · refine extractStridedSlice_apply ![0, off] y hs1 (ix2 ch (⟨p.val, hn⟩ : Fin n)) (ix2 ch (⟨p.val + off, hp⟩ : Fin 7680)) ?_
    intro a
    match a with
    | ⟨0, _⟩ => exact (Nat.zero_add _).symm
    | ⟨1, _⟩ => exact Nat.add_comm _ _

/-- The lane offset of tap t = 3 i + j: i rows of 224 lanes and j lanes. -/
def tapOff : Fin 9 → Nat
  | ⟨0, _⟩ => 0
  | ⟨1, _⟩ => 1
  | ⟨2, _⟩ => 2
  | ⟨3, _⟩ => 224
  | ⟨4, _⟩ => 225
  | ⟨5, _⟩ => 226
  | ⟨6, _⟩ => 448
  | ⟨7, _⟩ => 449
  | ⟨8, _⟩ => 450
  | ⟨_ + 9, h⟩ => absurd h (Nat.not_lt.2 (Nat.le_add_left _ _))

theorem tapOff_eq : ∀ t : Fin 9, tapOff t = 224 * (t.val / 3) + t.val % 3 := by decide

/-- The nine shifted copies of the slab, each cut to its first 7168 lanes. -/
def piece (y : FVec Ideal S96x7680 .bf16) : Fin 9 → FVec Ideal S96x7168 .bf16
  | ⟨0, _⟩ => extractStridedSlice S96x7168 ![0, 0] y slices_S96x7680_o0_0_S96x7168
  | ⟨1, _⟩ => extractStridedSlice S96x7168 ![0, 0] (concatenate S96x7680 1 [⟨S96x7679, extractStridedSlice S96x7679 ![0, 1] y slices_S96x7680_o0_1_S96x7679⟩, ⟨S96x1, extractStridedSlice S96x1 ![0, 0] y slices_S96x7680_o0_0_S96x1⟩] concatenates_S96x7679_S96x1_S96x7680_d1) slices_S96x7680_o0_0_S96x7168
  | ⟨2, _⟩ => extractStridedSlice S96x7168 ![0, 0] (concatenate S96x7680 1 [⟨S96x7678, extractStridedSlice S96x7678 ![0, 2] y slices_S96x7680_o0_2_S96x7678⟩, ⟨S96x2, extractStridedSlice S96x2 ![0, 0] y slices_S96x7680_o0_0_S96x2⟩] concatenates_S96x7678_S96x2_S96x7680_d1) slices_S96x7680_o0_0_S96x7168
  | ⟨3, _⟩ => extractStridedSlice S96x7168 ![0, 0] (concatenate S96x7680 1 [⟨S96x7456, extractStridedSlice S96x7456 ![0, 224] y slices_S96x7680_o0_224_S96x7456⟩, ⟨S96x224, extractStridedSlice S96x224 ![0, 0] y slices_S96x7680_o0_0_S96x224⟩] concatenates_S96x7456_S96x224_S96x7680_d1) slices_S96x7680_o0_0_S96x7168
  | ⟨4, _⟩ => extractStridedSlice S96x7168 ![0, 0] (concatenate S96x7680 1 [⟨S96x7455, extractStridedSlice S96x7455 ![0, 225] y slices_S96x7680_o0_225_S96x7455⟩, ⟨S96x225, extractStridedSlice S96x225 ![0, 0] y slices_S96x7680_o0_0_S96x225⟩] concatenates_S96x7455_S96x225_S96x7680_d1) slices_S96x7680_o0_0_S96x7168
  | ⟨5, _⟩ => extractStridedSlice S96x7168 ![0, 0] (concatenate S96x7680 1 [⟨S96x7454, extractStridedSlice S96x7454 ![0, 226] y slices_S96x7680_o0_226_S96x7454⟩, ⟨S96x226, extractStridedSlice S96x226 ![0, 0] y slices_S96x7680_o0_0_S96x226⟩] concatenates_S96x7454_S96x226_S96x7680_d1) slices_S96x7680_o0_0_S96x7168
  | ⟨6, _⟩ => extractStridedSlice S96x7168 ![0, 0] (concatenate S96x7680 1 [⟨S96x7232, extractStridedSlice S96x7232 ![0, 448] y slices_S96x7680_o0_448_S96x7232⟩, ⟨S96x448, extractStridedSlice S96x448 ![0, 0] y slices_S96x7680_o0_0_S96x448⟩] concatenates_S96x7232_S96x448_S96x7680_d1) slices_S96x7680_o0_0_S96x7168
  | ⟨7, _⟩ => extractStridedSlice S96x7168 ![0, 0] (concatenate S96x7680 1 [⟨S96x7231, extractStridedSlice S96x7231 ![0, 449] y slices_S96x7680_o0_449_S96x7231⟩, ⟨S96x449, extractStridedSlice S96x449 ![0, 0] y slices_S96x7680_o0_0_S96x449⟩] concatenates_S96x7231_S96x449_S96x7680_d1) slices_S96x7680_o0_0_S96x7168
  | ⟨8, _⟩ => extractStridedSlice S96x7168 ![0, 0] (concatenate S96x7680 1 [⟨S96x7230, extractStridedSlice S96x7230 ![0, 450] y slices_S96x7680_o0_450_S96x7230⟩, ⟨S96x450, extractStridedSlice S96x450 ![0, 0] y slices_S96x7680_o0_0_S96x450⟩] concatenates_S96x7230_S96x450_S96x7680_d1) slices_S96x7680_o0_0_S96x7168
  | ⟨_ + 9, h⟩ => absurd h (Nat.not_lt.2 (Nat.le_add_left _ _))

/-- Piece t at (ch, p) is the slab at (ch, p + the tap's offset). -/
theorem piece_apply (y : FVec Ideal S96x7680 .bf16) (t : Fin 9) (ch : Fin 96) (p : Fin 7168) (hp : p.val + tapOff t < 7680) :
    piece y t (ix2 ch p) = y (ix2 ch ⟨p.val + tapOff t, hp⟩) := by
  match t with
  | ⟨0, _⟩ => exact cut_apply y ch p
  | ⟨1, _⟩ => exact roll_apply y 1 7679 slices_S96x7680_o0_1_S96x7679 slices_S96x7680_o0_0_S96x1 concatenates_S96x7679_S96x1_S96x7680_d1 ch p (by have := p.isLt; omega) hp
  | ⟨2, _⟩ => exact roll_apply y 2 7678 slices_S96x7680_o0_2_S96x7678 slices_S96x7680_o0_0_S96x2 concatenates_S96x7678_S96x2_S96x7680_d1 ch p (by have := p.isLt; omega) hp
  | ⟨3, _⟩ => exact roll_apply y 224 7456 slices_S96x7680_o0_224_S96x7456 slices_S96x7680_o0_0_S96x224 concatenates_S96x7456_S96x224_S96x7680_d1 ch p (by have := p.isLt; omega) hp
  | ⟨4, _⟩ => exact roll_apply y 225 7455 slices_S96x7680_o0_225_S96x7455 slices_S96x7680_o0_0_S96x225 concatenates_S96x7455_S96x225_S96x7680_d1 ch p (by have := p.isLt; omega) hp
  | ⟨5, _⟩ => exact roll_apply y 226 7454 slices_S96x7680_o0_226_S96x7454 slices_S96x7680_o0_0_S96x226 concatenates_S96x7454_S96x226_S96x7680_d1 ch p (by have := p.isLt; omega) hp
  | ⟨6, _⟩ => exact roll_apply y 448 7232 slices_S96x7680_o0_448_S96x7232 slices_S96x7680_o0_0_S96x448 concatenates_S96x7232_S96x448_S96x7680_d1 ch p (by have := p.isLt; omega) hp
  | ⟨7, _⟩ => exact roll_apply y 449 7231 slices_S96x7680_o0_449_S96x7231 slices_S96x7680_o0_0_S96x449 concatenates_S96x7231_S96x449_S96x7680_d1 ch p (by have := p.isLt; omega) hp
  | ⟨8, _⟩ => exact roll_apply y 450 7230 slices_S96x7680_o0_450_S96x7230 slices_S96x7680_o0_0_S96x450 concatenates_S96x7230_S96x450_S96x7680_d1 ch p (by have := p.isLt; omega) hp
  | ⟨_ + 9, h⟩ => exact absurd h (Nat.not_lt.2 (Nat.le_add_left _ _))

/-- The patch matrix: the nine pieces stacked along the rows, tap after tap. -/
def xcol (y : FVec Ideal S96x7680 .bf16) : FVec Ideal S864x7168 .bf16 :=
  concatenate S864x7168 0 (List.ofFn fun t : Fin 9 => (⟨S96x7168, piece y t⟩ : (s : Shape) × (s.Idx → Ideal .bf16)))
    concatenates_S96x7168_S96x7168_S96x7168_S96x7168_S96x7168_S96x7168_S96x7168_S96x7168_S96x7168_S864x7168_d0

/-- Row k of the patch matrix is row k mod 96 of piece k / 96. -/
theorem xcol_apply (y : FVec Ideal S96x7680 .bf16) (k : Fin 864) (p : Fin 7168) :
    xcol y (ix2 k p) = piece y ⟨k.val / 96, by have := k.isLt; omega⟩ (ix2 (⟨k.val % 96, Nat.mod_lt _ (by decide)⟩ : Fin 96) p) := by
  unfold xcol
  refine concatenate_ofFn_apply (t := S864x7168) (s₁ := S96x7168) (0 : Fin 2) (fun t : Fin 9 => piece y t) _ rfl 96 rfl (ix2 k p)
    ⟨k.val / 96, by have := k.isLt; omega⟩ rfl (ix2 (⟨k.val % 96, Nat.mod_lt _ (by decide)⟩ : Fin 96) p) rfl ?_
  intro b hb
  match b with
  | ⟨0, _⟩ => exact absurd rfl hb
  | ⟨1, _⟩ => rfl

theorem lhs_mm_0 (i : S96x7168.Idx) (q : Cert.KernelIdeal.dot_S96x864_S864x7168_S96x7168_1_0_0_1_n_n.contr.Idx) :
    (Cert.KernelIdeal.dot_S96x864_S864x7168_S96x7168_1_0_0_1_n_n.lhsIdx i q 0).val = (i 0).val := by
  unfold DotDims.lhsIdx
  rw [dif_neg (show ¬(0 : Fin S96x864.rank) ∈ Cert.KernelIdeal.dot_S96x864_S864x7168_S96x7168_1_0_0_1_n_n.lhsBatch by decide), dif_pos (show (0 : Fin S96x864.rank) ∈ Cert.KernelIdeal.dot_S96x864_S864x7168_S96x7168_1_0_0_1_n_n.lhsNonContracting by decide)]
  rfl
theorem lhs_mm_1 (i : S96x7168.Idx) (q : Cert.KernelIdeal.dot_S96x864_S864x7168_S96x7168_1_0_0_1_n_n.contr.Idx) :
    (Cert.KernelIdeal.dot_S96x864_S864x7168_S96x7168_1_0_0_1_n_n.lhsIdx i q 1).val = (q ⟨0, by decide⟩).val :=
  Cert.KernelIdeal.dot_S96x864_S864x7168_S96x7168_1_0_0_1_n_n.lhsIdx_val_of_single rfl i q
theorem rhs_mm_0 (i : S96x7168.Idx) (q : Cert.KernelIdeal.dot_S96x864_S864x7168_S96x7168_1_0_0_1_n_n.contr.Idx) :
    (Cert.KernelIdeal.dot_S96x864_S864x7168_S96x7168_1_0_0_1_n_n.rhsIdx i q 0).val = (q ⟨0, by decide⟩).val :=
  Cert.KernelIdeal.dot_S96x864_S864x7168_S96x7168_1_0_0_1_n_n.rhsIdx_val_of_single rfl i q
theorem rhs_mm_1 (i : S96x7168.Idx) (q : Cert.KernelIdeal.dot_S96x864_S864x7168_S96x7168_1_0_0_1_n_n.contr.Idx) :
    (Cert.KernelIdeal.dot_S96x864_S864x7168_S96x7168_1_0_0_1_n_n.rhsIdx i q 1).val = (i 1).val := by
  unfold DotDims.rhsIdx
  rw [dif_neg (show ¬(1 : Fin S864x7168.rank) ∈ Cert.KernelIdeal.dot_S96x864_S864x7168_S96x7168_1_0_0_1_n_n.rhsBatch by decide), dif_pos (show (1 : Fin S864x7168.rank) ∈ Cert.KernelIdeal.dot_S96x864_S864x7168_S96x7168_1_0_0_1_n_n.rhsNonContracting by decide)]
  rfl

/-- The matrix product into a zero accumulator, at (f, p): the sum over the 864 patch columns. -/
theorem mm_apply (w : FVec Ideal S96x864 .bf16) (x : FVec Ideal S864x7168 .bf16) (f : Fin 96) (p : Fin 7168) :
    matmul Cert.KernelIdeal.dot_S96x864_S864x7168_S96x7168_1_0_0_1_n_n none w x (constant (F := Ideal) S96x7168 .f32 0x00000000#32) (ix2 f p)
      = ∑ k : Fin 864, w (ix2 f k) * x (ix2 k p) := by
  show FloatOps.matmul Cert.KernelIdeal.dot_S96x864_S864x7168_S96x7168_1_0_0_1_n_n none w x (constant (F := Ideal) S96x7168 .f32 0x00000000#32) (ix2 f p) = _
  rw [Ideal.matmul_constant_zero_apply, ← Equiv.sum_comp (ValueIdx.contrEquiv1 Cert.KernelIdeal.dot_S96x864_S864x7168_S96x7168_1_0_0_1_n_n 864 rfl rfl).symm]
  refine Finset.sum_congr rfl fun k _ => ?_
  have hk := ValueIdx.contrEquiv1_symm_val Cert.KernelIdeal.dot_S96x864_S864x7168_S96x7168_1_0_0_1_n_n 864 rfl rfl k
  have el : Cert.KernelIdeal.dot_S96x864_S864x7168_S96x7168_1_0_0_1_n_n.lhsIdx (ix2 f p) ((ValueIdx.contrEquiv1 Cert.KernelIdeal.dot_S96x864_S864x7168_S96x7168_1_0_0_1_n_n 864 rfl rfl).symm k) = ix2 f k := funext fun a => Fin.ext (by
    match a with
    | ⟨0, _⟩ => exact lhs_mm_0 _ _
    | ⟨1, _⟩ => exact (lhs_mm_1 _ _).trans hk)
  have er : Cert.KernelIdeal.dot_S96x864_S864x7168_S96x7168_1_0_0_1_n_n.rhsIdx (ix2 f p) ((ValueIdx.contrEquiv1 Cert.KernelIdeal.dot_S96x864_S864x7168_S96x7168_1_0_0_1_n_n 864 rfl rfl).symm k) = ix2 k p := funext fun a => Fin.ext (by
    match a with
    | ⟨0, _⟩ => exact (rhs_mm_0 _ _).trans hk
    | ⟨1, _⟩ => exact rhs_mm_1 _ _)
  rw [el, er]

/-- The product's [96, 7168] tile seen as [96, 32, 224] and cut to its first 222 columns: entry (f, rl, c) is
    entry (f, rl · 224 + c) of the product. -/
theorem out_apply (m : FVec Ideal S96x7168 .f32) (f : Fin 96) (rl : Fin 32) (c : Fin 222) :
    extractStridedSlice S96x32x222 ![0, 0, 0] (shapeCast S96x32x224 m shapeCasts_S96x7168_S96x32x224) slices_S96x32x224_o0_0_0_S96x32x222 (ix3 f rl c)
      = m (ix2 f ⟨rl.val * 224 + c.val, by have := rl.isLt; have := c.isLt; omega⟩) := by
  refine (extractStridedSlice_apply ![0, 0, 0] _ _ (ix3 f rl c) (ix3 f rl (⟨c.val, by have := c.isLt; omega⟩ : Fin 224)) ?_).trans ?_
  · intro a
    match a with
    | ⟨0, _⟩ => exact (Nat.zero_add _).symm
    | ⟨1, _⟩ => exact (Nat.zero_add _).symm
    | ⟨2, _⟩ => exact (Nat.zero_add _).symm
  · refine shapeCast_apply m _ _ (ix2 f (⟨rl.val * 224 + c.val, by have := rl.isLt; have := c.isLt; omega⟩ : Fin 7168)) ?_
    rw [Shape.rowMajor_val_two, Shape.rowMajor_val_three]
    show f.val * 7168 + (rl.val * 224 + c.val) = (f.val * 32 + rl.val) * 224 + c.val
    omega

/-- The body's value over the named stages: the masked weights times the patch matrix of the slab, seen as
    [96, 32, 224] and cut to 222 columns. -/
def pay (v0 v1 : Vec Ideal S96x864 .f32) (v4 : Vec Ideal S1x96x7168 .f32) (v6 : Vec Ideal S1x96x512 .f32) : FVec Ideal S96x32x222 .f32 :=
  extractStridedSlice S96x32x222 ![0, 0, 0]
    (shapeCast S96x32x224
      (matmul Cert.KernelIdeal.dot_S96x864_S864x7168_S96x7168_1_0_0_1_n_n none (truncf .bf16 (mulf v0 v1) bitsLt_bf16_f32) (xcol (slab v4 v6)) (constant (F := Ideal) S96x7168 .f32 0x00000000#32))
      shapeCasts_S96x7168_S96x32x224) slices_S96x32x224_o0_0_0_S96x32x222

theorem pay2_eq (v0 v1 : Vec Ideal S96x864 .f32) (v4 : Vec Ideal S1x96x7168 .f32) (v6 : Vec Ideal S1x96x512 .f32) :
    k0_pay2 (F := Ideal) v0 v1 v4 v6 = pay v0 v1 v4 v6 := rfl

/-- The offset of patch column k's tap: its row offset times the row length, plus its column offset. -/
theorem tapOff_col (k : Fin 864) (h : k.val / 96 < 9) :
    tapOff ⟨k.val / 96, h⟩ = 224 * Cert.Conv.tapI k + Cert.Conv.tapJ k := by
  rw [tapOff_eq]
  show 224 * (k.val / 96 / 3) + k.val / 96 % 3 = 224 * (k.val / 288) + k.val / 96 % 3
  omega

theorem pay2_apply (v0 v1 : Vec Ideal S96x864 .f32) (v4 : Vec Ideal S1x96x7168 .f32) (v6 : Vec Ideal S1x96x512 .f32) (f : Fin 96) (rl : Fin 32) (c : Fin 222) :
    k0_pay2 (F := Ideal) v0 v1 v4 v6 (ix3 f rl c) = Cert.Conv.tileAt v0 v1 v4 v6 f rl c := by
  refine (congrFun (pay2_eq v0 v1 v4 v6) (ix3 f rl c)).trans ?_
  unfold pay
  refine (out_apply _ f rl c).trans ?_
  refine (mm_apply _ _ f _).trans ?_
  unfold Cert.Conv.tileAt
  refine Finset.sum_congr rfl fun k _ => ?_
  refine congrArg (v0 (ix2 f k) * v1 (ix2 f k) * ·) ?_
  refine (xcol_apply _ k _).trans ?_
  have hk9 : k.val / 96 < 9 := by have := k.isLt; omega
  have hoff := tapOff_col k hk9
  have hI := Cert.Conv.tapI_le k
  have hJ := Cert.Conv.tapJ_le k
  have hrl := rl.isLt
  have hc := c.isLt
  have hp : rl.val * 224 + c.val + tapOff ⟨k.val / 96, hk9⟩ < 7680 := by omega
  refine (piece_apply _ ⟨k.val / 96, hk9⟩ _ ⟨rl.val * 224 + c.val, by omega⟩ hp).trans ?_
  refine (slab_apply v4 v6 _ _).trans ?_
  refine congrArg (Cert.Conv.flat v4 v6 (Cert.Conv.chan k)) ?_
  show rl.val * 224 + c.val + tapOff ⟨k.val / 96, hk9⟩ = rl.val * 224 + c.val + 224 * Cert.Conv.tapI k + Cert.Conv.tapJ k
  omega

end Cert.KernelIdeal.Payload

end
-- ==== Proof.TileValue.lean ====
/-
  The result tile at a grid point, entry by entry: what the body stores into the result's staging buffer at point
  (bi, ri), read at (0, f, rl, col), is the correlation at (bi, f, 32·ri + rl, col) of the image with the masked
  weights. The stored tile is the payload with a unit axis added; the weights' and the mask's windows stage their
  arrays whole; the main window's block at the point is words ri·7168 … of every channel's row-major plane and the
  tail window's block is words min(14·ri+14, 97)·512 … of the same plane; the plane array is the image reshaped.
-/
import proofs.«180027_g33251636806221_cont_8to1_b_887_19_alg».proof.Proof.KIFrame
import proofs.«180027_g33251636806221_cont_8to1_b_887_19_alg».proof.Proof.ConvSpec
import proofs.«180027_g33251636806221_cont_8to1_b_887_19_alg».proof.Proof.ConvTile
import proofs.«180027_g33251636806221_cont_8to1_b_887_19_alg».proof.Proof.Payload
import Idealize.ShloMosaic.Lib.Pipeline.Value
import Idealize.ShloMosaic.Lib.ValueIdx
import Idealize.ShloMosaic.Lib.StableHlo.Run

set_option maxRecDepth 16384

noncomputable section

namespace Cert.KernelIdeal.TileValue

open Cert.KernelIdeal Cert.KernelIdeal.Gen Cert.KernelIdeal.Hand Idealize.ShloMosaic Idealize.ShloMosaic.TcCoe Idealize.ShloMosaic.ValueIdx

/-! ## The stored tile is the payload with a unit axis in front -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The unit axis added in front of a [96, 32, 222] value: entry (0, f, rl, col) is entry (f, rl, col). -/
theorem addUnit_apply (v : FVec Ideal S96x32x222 .f32) (f : Fin 96) (rl : Fin 32) (col : Fin 222) :
    k0_pay1 (F := Ideal) v (ix4 (0 : Fin 1) f rl col) = v (ix3 f rl col) := by
  unfold k0_pay1
  refine shapeCast_apply _ _ _ (ix3 f rl col) ?_
  rw [Shape.rowMajor_val_three, Shape.rowMajor_val_four]
  show (f.val * 32 + rl.val) * 222 + col.val = (((0 : Fin 1).val * 96 + f.val) * 32 + rl.val) * 222 + col.val
  simp

/-- What the body stores, at (0, f, rl, col), is the payload of the four staged blocks at (f, rl, col). -/
theorem out4_apply (x0 x1 : Vec Ideal S96x864 .f32) (x2 : Vec Ideal S1x96x7168 .f32) (x3 : Vec Ideal S1x96x512 .f32)
    (f : Fin 96) (rl : Fin 32) (col : Fin 222) :
    out0_4 (F := Ideal) x0 x1 x2 x3 (ix4 (0 : Fin 1) f rl col) = k0_pay2 (F := Ideal) x0 x1 x2 x3 (ix3 f rl col) := by
  unfold out0_4
  rw [View.canon_unit_zero hz4]
  simp only [View.ld_unit_zero (S := S96x864) hz2, View.ld_unit_zero (S := S1x96x7168) hz3, View.ld_unit_zero (S := S1x96x512) hz3]
  exact addUnit_apply _ f rl col

/-! ## The windows' block indices at the grid's points -/

/-- The index maps evaluated at every grid point: the weights' and the mask's windows sit at block (0, 0); the main
    window at block (bi, 0, ri); the tail window at block (bi, 0, min (14·ri + 14) 97). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = (grid0.coords t 0).val ∧ win0_2.index t (1 : Fin 3) = 0
    ∧ win0_2.index t (2 : Fin 3) = (grid0.coords t 1).val
    ∧ win0_3.index t (0 : Fin 3) = (grid0.coords t 0).val ∧ win0_3.index t (1 : Fin 3) = 0
    ∧ win0_3.index t (2 : Fin 3) = min (14 * (grid0.coords t 1).val + 14) 97 :=
  (by decide +kernel : ∀ t : Fin grid0.N, _)

/-! ## The staged blocks, read at coordinates -/

variable (m : (ℓ : Loc nD τ sig) → Buf (Elt Ideal) ℓ)

/-- The weights' window stages the weights whole. -/
theorem blk0_apply (c : Dev nD) (t : Fin cfg0.N) (f : Fin 96) (k : Fin 864) :
    iblk (F := Ideal) m c 0 t (ix2 f k) = m ((c.tc : Thread nD τ).loc main_arg1) (ix2 f k) := by
  rw [← V_main_arg1 m c]
  show V m c main_arg1 (((cfg0.win 0).blk t).view.emb (ix2 f k)) = V m c main_arg1 (ix2 f k)
  refine congrArg _ ?_
  obtain ⟨e0, e1, -⟩ := idx_facts t
  funext a; apply Fin.ext
  match a with
  | ⟨0, _⟩ => show win0_0.index t (0 : Fin 2) * 96 + 1 * f.val = f.val; omega
  | ⟨1, _⟩ => show win0_0.index t (1 : Fin 2) * 864 + 1 * k.val = k.val; omega

/-- The mask's window stages the mask whole. -/
theorem blk1_apply (c : Dev nD) (t : Fin cfg0.N) (f : Fin 96) (k : Fin 864) :
    iblk (F := Ideal) m c 1 t (ix2 f k) = m ((c.tc : Thread nD τ).loc main_arg2) (ix2 f k) := by
  rw [← V_main_arg2 m c]
  show V m c main_arg2 (((cfg0.win 1).blk t).view.emb (ix2 f k)) = V m c main_arg2 (ix2 f k)
  refine congrArg _ ?_
  obtain ⟨-, -, e0, e1, -⟩ := idx_facts t
  funext a; apply Fin.ext
  match a with
  | ⟨0, _⟩ => show win0_1.index t (0 : Fin 2) * 96 + 1 * f.val = f.val; omega
  | ⟨1, _⟩ => show win0_1.index t (1 : Fin 2) * 864 + 1 * k.val = k.val; omega

/-- The main window's block at a point: word `q` of channel `ch` is word `ri · 7168 + q` of the channel's plane in
    batch `bi`. -/
theorem blk2_apply (c : Dev nD) (t : Fin cfg0.N) (ch : Fin 96) (q : Fin 7168) (p : Fin 50176)
    (hp : p.val = (grid0.coords t 1).val * 7168 + q.val) :
    iblk (F := Ideal) m c 2 t (ix3 (0 : Fin 1) ch q)
      = V m c main_v0 (ix3 (⟨(grid0.coords t 0).val, (grid0.coords t 0).isLt⟩ : Fin 2) ch p) := by
  show V m c main_v0 (((cfg0.win 2).blk t).view.emb (ix3 (0 : Fin 1) ch q)) = _
  refine congrArg _ ?_
  obtain ⟨-, -, -, -, e0, e1, e2, -⟩ := idx_facts t
  funext a; apply Fin.ext
  match a with
  | ⟨0, _⟩ => show win0_2.index t (0 : Fin 3) * 1 + 1 * (0 : Fin 1).val = (grid0.coords t 0).val; rw [e0]; simp
  | ⟨1, _⟩ => show win0_2.index t (1 : Fin 3) * 96 + 1 * ch.val = ch.val; omega
  | ⟨2, _⟩ => show win0_2.index t (2 : Fin 3) * 7168 + 1 * q.val = p.val; omega

/-- The tail window's block at a point: word `q` of channel `ch` is word `min (14·ri + 14) 97 · 512 + q` of the
    channel's plane in batch `bi`. -/
theorem blk3_apply (c : Dev nD) (t : Fin cfg0.N) (ch : Fin 96) (q : Fin 512) (p : Fin 50176)
    (hp : p.val = min (14 * (grid0.coords t 1).val + 14) 97 * 512 + q.val) :
    iblk (F := Ideal) m c 3 t (ix3 (0 : Fin 1) ch q)
      = V m c main_v0 (ix3 (⟨(grid0.coords t 0).val, (grid0.coords t 0).isLt⟩ : Fin 2) ch p) := by
  show V m c main_v0 (((cfg0.win 3).blk t).view.emb (ix3 (0 : Fin 1) ch q)) = _
  refine congrArg _ ?_
  obtain ⟨-, -, -, -, -, -, -, e0, e1, e2⟩ := idx_facts t
  funext a; apply Fin.ext
  match a with
  | ⟨0, _⟩ => show win0_3.index t (0 : Fin 3) * 1 + 1 * (0 : Fin 1).val = (grid0.coords t 0).val; rw [e0]; simp
  | ⟨1, _⟩ => show win0_3.index t (1 : Fin 3) * 96 + 1 * ch.val = ch.val; omega
  | ⟨2, _⟩ => show win0_3.index t (2 : Fin 3) * 512 + 1 * q.val = p.val; rw [e2, hp]; omega

/-! ## The plane array is the image reshaped -/

/-- The region finds the plane array at the reshape of the image. -/
theorem plane_eq (c : Dev nD) :
    (V m c main_v0 : S2x96x50176.Idx → EReal)
      = shapeCast S2x96x50176 (m ((c.tc : Thread nD τ).loc main_arg0)) shapeCasts_S2x96x224x224_S2x96x50176 := by
  dsimp only [V, hostOps0]; after_results; rfl

/-- Word `h · 224 + w` of channel `ch`'s plane in batch `b` is the image's element (b, ch, h, w). -/
theorem plane_apply (c : Dev nD) (b : Fin 2) (ch : Fin 96) (h w : Fin 224) (p : Fin 50176) (hp : p.val = h.val * 224 + w.val) :
    V m c main_v0 (ix3 b ch p) = m ((c.tc : Thread nD τ).loc main_arg0) (ix4 b ch h w) := by
  refine (congrFun (plane_eq m c) (ix3 b ch p)).trans ?_
  refine shapeCast_apply _ _ _ (ix4 b ch h w) ?_
  rw [Shape.rowMajor_val_three, Shape.rowMajor_val_four]
  show ((b.val * 96 + ch.val) * 224 + h.val) * 224 + w.val = (b.val * 96 + ch.val) * 50176 + p.val
  omega

/-! ## The tile's entry is the correlation -/

/-- The weights' window's block, as a function, is the weights. -/
theorem blk0_eq (c : Dev nD) (t : Fin cfg0.N) :
    (iblk (F := Ideal) m c 0 t : S96x864.Idx → EReal) = m ((c.tc : Thread nD τ).loc main_arg1) := by
  funext j
  rw [eq_ix2 j]
  exact blk0_apply m c t _ _

/-- The mask's window's block, as a function, is the mask. -/
theorem blk1_eq (c : Dev nD) (t : Fin cfg0.N) :
    (iblk (F := Ideal) m c 1 t : S96x864.Idx → EReal) = m ((c.tc : Thread nD τ).loc main_arg2) := by
  funext j
  rw [eq_ix2 j]
  exact blk1_apply m c t _ _

/-- At grid point (bi, ri), entry (0, f, rl, col) of what the body stores is the correlation at output pixel
    (bi, f, 32·ri + rl, col), for every output row the array has. -/
theorem tile_apply (m : (ℓ : Loc nD τ sig) → Buf (Elt Ideal) ℓ) (c : Dev nD) (t : Fin cfg0.N) (f : Fin 96) (rl : Fin 32) (col : Fin 222)
    (hr : 32 * (grid0.coords t 1).val + rl.val < 222) :
    out0_4 (F := Ideal) (iblk m c 0 t) (iblk m c 1 t) (iblk m c 2 t) (iblk m c 3 t) (ix4 (0 : Fin 1) f rl col)
      = Cert.Conv.convAt (m ((c.tc : Thread nD τ).loc main_arg0)) (m ((c.tc : Thread nD τ).loc main_arg1)) (m ((c.tc : Thread nD τ).loc main_arg2))
          ⟨(grid0.coords t 0).val, (grid0.coords t 0).isLt⟩ f ⟨32 * (grid0.coords t 1).val + rl.val, hr⟩ col := by
  refine (out4_apply (iblk m c 0 t) (iblk m c 1 t) (iblk m c 2 t) (iblk m c 3 t) f rl col).trans ?_
  refine (Cert.KernelIdeal.Payload.pay2_apply (iblk m c 0 t) (iblk m c 1 t) (iblk m c 2 t) (iblk m c 3 t) f rl col).trans ?_
  rw [blk0_eq m c t, blk1_eq m c t]
  exact Cert.Conv.tileAt_eq_convAt (m ((c.tc : Thread nD τ).loc main_arg0)) (V m c main_v0) _ _ (iblk m c 2 t) (iblk m c 3 t)
    ⟨(grid0.coords t 0).val, (grid0.coords t 0).isLt⟩ ⟨(grid0.coords t 1).val, (grid0.coords t 1).isLt⟩
    (fun b ch h w p hp => plane_apply m c b ch h w p hp)
    (fun ch q p hp => blk2_apply m c t ch q p hp)
    (fun ch q p hp => blk3_apply m c t ch q p hp) f rl col hr

end Cert.KernelIdeal.TileValue

end
-- ==== Proof.KIValue.lean ====
/-
  The result array after the kernel's run is the correlation of the arguments. Point (bi, ri) of the grid writes back
  the rows of its 32-row tile that lie inside the array — all 32, but for the last row block, cut to 30 —, and tile row
  rl of that point is output row 32 · ri + rl of batch bi; every pixel of the result lies in exactly the block of the
  point of its batch and its row's block, so the fourteen write-backs leave the whole correlation.
-/
import proofs.«180027_g33251636806221_cont_8to1_b_887_19_alg».proof.Proof.KIFrame
import proofs.«180027_g33251636806221_cont_8to1_b_887_19_alg».proof.Proof.ConvSpec
import proofs.«180027_g33251636806221_cont_8to1_b_887_19_alg».proof.Proof.TileValue
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The correlation of the launch contents of the three arguments. -/
abbrev G (c : Dev nD) : S2x96x222x222.Idx → EReal :=
  Cert.Conv.conv (m ((c.tc : Thread nD τ).loc main_arg0)) (m ((c.tc : Thread nD τ).loc main_arg1)) (m ((c.tc : Thread nD τ).loc main_arg2))

/-- The grid is row-major: point `t` is batch `t / 7`, row block `t % 7`. -/
theorem coords_val : ∀ t : Fin cfg0.N, (grid0.coords t 0).val = t.val / 7 ∧ (grid0.coords t 1).val = t.val % 7 :=
  (by decide +kernel : ∀ t : Fin grid0.N, (grid0.coords t 0).val = t.val / 7 ∧ (grid0.coords t 1).val = t.val % 7)

/-- The result window's block index at a point: (batch, 0, row block, 0). -/
theorem idx4 : ∀ t : Fin cfg0.N, win0_4.index t 0 = (grid0.coords t 0).val ∧ win0_4.index t 1 = 0
    ∧ win0_4.index t 2 = (grid0.coords t 1).val ∧ win0_4.index t 3 = 0 :=
  (by decide +kernel : ∀ t : Fin grid0.N, win0_4.index t 0 = (grid0.coords t 0).val ∧ win0_4.index t 1 = 0
    ∧ win0_4.index t 2 = (grid0.coords t 1).val ∧ win0_4.index t 3 = 0)

/-- What its write-back moves: the whole tile, but for the last row block, whose 32 rows are cut to the 30 inside the array. -/
theorem xsize4 : ∀ t : Fin cfg0.N, win0_4.xsize (grid0.coords t) 0 = 1 ∧ win0_4.xsize (grid0.coords t) 1 = 96
    ∧ win0_4.xsize (grid0.coords t) 2 = min 32 (222 - 32 * (grid0.coords t 1).val) ∧ win0_4.xsize (grid0.coords t) 3 = 222 :=
  (by decide +kernel : ∀ t : Fin grid0.N, win0_4.xsize (grid0.coords t) 0 = 1 ∧ win0_4.xsize (grid0.coords t) 1 = 96
    ∧ win0_4.xsize (grid0.coords t) 2 = min 32 (222 - 32 * (grid0.coords t 1).val) ∧ win0_4.xsize (grid0.coords t) 3 = 222)

/-- The correlation at a pixel depends on the pixel's coordinates as numbers. -/
theorem convAt_congr (x : Cert.Conv.SX.Idx → EReal) (kv km : Cert.Conv.SW.Idx → EReal) {b b' : Fin 2} {f f' : Fin 96} {r r' c c' : Fin 222}
    (hb : b.val = b'.val) (hf : f.val = f'.val) (hr : r.val = r'.val) (hc : c.val = c'.val) :
    Cert.Conv.convAt x kv km b f r c = Cert.Conv.convAt x kv km b' f' r' c' := by
  obtain rfl := Fin.ext hb; obtain rfl := Fin.ext hf; obtain rfl := Fin.ext hr; obtain rfl := Fin.ext hc; rfl

/-- What point `t` writes back — the rows of its tile that lie inside the array — is the correlation read through
    the point's block: tile row `rl` is output row `32 · ri + rl`. -/
theorem flushed_eq (c : Dev nD) (t : Fin cfg0.N) :
    (dats m 0 c).flushed 4 t = ((cfg0.win 4).blk t).view.read (Elt Ideal) (G m c) := by
  funext y
  show (dats m 0 c).after 4 t (win0_4.xinj (grid0.coords t) y) = G m c (((cfg0.win 4).blk t).view.emb y)
  rw [after0_4]
  obtain ⟨hx0, hx1, hx2, hx3⟩ := xsize4 t
  obtain ⟨hi0, hi1, hi2, hi3⟩ := idx4 t
  have y0 : (y 0).val < 1 := hx0 ▸ (y 0).isLt
  have y1 : (y 1).val < 96 := hx1 ▸ (y 1).isLt
  have y2 : (y 2).val < min 32 (222 - 32 * (grid0.coords t 1).val) := hx2 ▸ (y 2).isLt
  have y3 : (y 3).val < 222 := hx3 ▸ (y 3).isLt
  have hr : 32 * (grid0.coords t 1).val + (y 2).val < 222 := by omega
  have e1 : win0_4.xinj (grid0.coords t) y = ix4 (0 : Fin 1) ⟨(y 1).val, y1⟩ ⟨(y 2).val, by omega⟩ ⟨(y 3).val, y3⟩ := by
    funext a; apply Fin.ext
    match a with
    | ⟨0, _⟩ => show (y 0).val = 0; omega
    | ⟨1, _⟩ => rfl
    | ⟨2, _⟩ => rfl
    | ⟨3, _⟩ => rfl
  rw [e1, Cert.KernelIdeal.TileValue.tile_apply m c t _ _ _ hr]
  show _ = Cert.Conv.convAt _ _ _ _ _ _ _
  refine convAt_congr _ _ _ ?_ ?_ ?_ ?_
  · show (grid0.coords t 0).val = win0_4.index t 0 * S1x96x32x222.size 0 + 1 * (y 0).val
    rw [hi0]; show (grid0.coords t 0).val = (grid0.coords t 0).val * 1 + 1 * (y 0).val; omega
  · show (y 1).val = win0_4.index t 1 * S1x96x32x222.size 1 + 1 * (y 1).val
    rw [hi1]; show (y 1).val = 0 * 96 + 1 * (y 1).val; omega
  · show 32 * (grid0.coords t 1).val + (y 2).val = win0_4.index t 2 * S1x96x32x222.size 2 + 1 * (y 2).val
    rw [hi2]; show 32 * (grid0.coords t 1).val + (y 2).val = (grid0.coords t 1).val * 32 + 1 * (y 2).val; omega
  · show (y 3).val = win0_4.index t 3 * S1x96x32x222.size 3 + 1 * (y 3).val
    rw [hi3]; show (y 3).val = 0 * 222 + 1 * (y 3).val; omega

/-- An index of the result array is in point `t`'s block iff its batch is `t`'s and its row is among the block's rows
    inside the array. -/
theorem mem_blk (t : Fin cfg0.N) (i : S2x96x222x222.Idx) :
    i ∈ ((cfg0.win 4).blk t).view.set ↔ (i 0).val = (grid0.coords t 0).val
      ∧ 32 * (grid0.coords t 1).val ≤ (i 2).val ∧ (i 2).val < 32 * (grid0.coords t 1).val + min 32 (222 - 32 * (grid0.coords t 1).val) := by
  show i ∈ ((View.whole main_v1).slice (win0_4.rect t)).set ↔ _
  rw [View.set_slice_whole, Rect.mem_set_unit]
  obtain ⟨hx0, hx1, hx2, hx3⟩ := xsize4 t
  obtain ⟨hi0, hi1, hi2, hi3⟩ := idx4 t
  have i1 : (i 1).val < 96 := (i 1).isLt
  have i3 : (i 3).val < 222 := (i 3).isLt
  constructor
  · intro h
    have h0 := h 0; have h2 := h 2
    change win0_4.index t 0 * S1x96x32x222.size 0 ≤ (i 0).val ∧ (i 0).val < win0_4.index t 0 * S1x96x32x222.size 0 + win0_4.xsize (grid0.coords t) 0 at h0
    change win0_4.index t 2 * S1x96x32x222.size 2 ≤ (i 2).val ∧ (i 2).val < win0_4.index t 2 * S1x96x32x222.size 2 + win0_4.xsize (grid0.coords t) 2 at h2
    rw [hi0, hx0] at h0; rw [hi2, hx2] at h2
    change (grid0.coords t 0).val * 1 ≤ (i 0).val ∧ (i 0).val < (grid0.coords t 0).val * 1 + 1 at h0
    change (grid0.coords t 1).val * 32 ≤ (i 2).val ∧ (i 2).val < (grid0.coords t 1).val * 32 + min 32 (222 - 32 * (grid0.coords t 1).val) at h2
    omega
  · intro ⟨h0, h2l, h2u⟩ a
    match a with
    | ⟨0, _⟩ =>
      change win0_4.index t 0 * S1x96x32x222.size 0 ≤ (i 0).val ∧ (i 0).val < win0_4.index t 0 * S1x96x32x222.size 0 + win0_4.xsize (grid0.coords t) 0
      rw [hi0, hx0]; change (grid0.coords t 0).val * 1 ≤ (i 0).val ∧ (i 0).val < (grid0.coords t 0).val * 1 + 1; omega
    | ⟨1, _⟩ =>
      change win0_4.index t 1 * S1x96x32x222.size 1 ≤ (i 1).val ∧ (i 1).val < win0_4.index t 1 * S1x96x32x222.size 1 + win0_4.xsize (grid0.coords t) 1
      rw [hi1, hx1]; change 0 * 96 ≤ (i 1).val ∧ (i 1).val < 0 * 96 + 96; omega
    | ⟨2, _⟩ =>
      change win0_4.index t 2 * S1x96x32x222.size 2 ≤ (i 2).val ∧ (i 2).val < win0_4.index t 2 * S1x96x32x222.size 2 + win0_4.xsize (grid0.coords t) 2
      rw [hi2, hx2]; change (grid0.coords t 1).val * 32 ≤ (i 2).val ∧ (i 2).val < (grid0.coords t 1).val * 32 + min 32 (222 - 32 * (grid0.coords t 1).val); omega
    | ⟨3, _⟩ =>
      change win0_4.index t 3 * S1x96x32x222.size 3 ≤ (i 3).val ∧ (i 3).val < win0_4.index t 3 * S1x96x32x222.size 3 + win0_4.xsize (grid0.coords t) 3
      rw [hi3, hx3]; change 0 * 222 ≤ (i 3).val ∧ (i 3).val < 0 * 222 + 222; omega

/-- Every pixel of the result lies in the block of the point of its batch and of its row's block of 32. -/
theorem cover (i : S2x96x222x222.Idx) : ∃ t : Fin cfg0.N, (cfg0.win 4).flush t = true ∧ i ∈ ((cfg0.win 4).blk t).view.set := by
  have i0 : (i 0).val < 2 := (i 0).isLt
  have i2 : (i 2).val < 222 := (i 2).isLt
  refine ⟨⟨(i 0).val * 7 + (i 2).val / 32, by rw [show cfg0.N = 14 from N_0]; omega⟩, flush0_4 _, ?_⟩
  rw [mem_blk]
  obtain ⟨hc0, hc1⟩ := coords_val ⟨(i 0).val * 7 + (i 2).val / 32, by rw [show cfg0.N = 14 from N_0]; omega⟩
  rw [hc0, hc1]
  show (i 0).val = ((i 0).val * 7 + (i 2).val / 32) / 7 ∧ 32 * (((i 0).val * 7 + (i 2).val / 32) % 7) ≤ (i 2).val
    ∧ (i 2).val < 32 * (((i 0).val * 7 + (i 2).val / 32) % 7) + min 32 (222 - 32 * (((i 0).val * 7 + (i 2).val / 32) % 7))
  omega

/-- The result array after the run holds the correlation of the arguments. -/
theorem final_eq (c : Dev nD) : (dats m 0 c).arrAt 4 cfg0.N = G m c :=
  (dats m 0 c).arrAt_eq_of_cover 4 (G m c) (fun t _ => flushed_eq m c t) cover

end Cert.KernelIdeal.HandValue

end
-- ==== Proof.RefG.lean ====
import proofs.«180027_g33251636806221_cont_8to1_b_887_19_alg».proof.Proof.Gen.ReferenceIdeal.Read
import proofs.«180027_g33251636806221_cont_8to1_b_887_19_alg».proof.Proof.ConvSpec
import Idealize.ShloMosaic.Lib.ValueIdx
import Idealize.ShloMosaic.Lib.Pipeline.Value
import Idealize.ShloMosaic.PureOps.Ideal.Laws

/-
  The reference program computes the 3x3 "valid" correlation of the specification: its patch matrix is the
  concatenation, along the channel axis, of the nine shifted 222x222 windows of the image (window n is tap
  (n / 3, n % 3)), so patch column k = (3 i + j) · 96 + ch holds channel ch = k % 96 of the window shifted by
  (i, j) = (k / 288, (k / 96) % 3); the transposition and the two reshapes only rename indices (the flat column
  of pixel (b, r, c) is (b · 222 + r) · 222 + c < 98568 = 2 · 222 · 222), and the dot product over the 864 patch
  columns is term by term the specification's sum.
-/

noncomputable section

namespace Cert.ReferenceIdeal.RefG

open Cert.ReferenceIdeal Cert.ReferenceIdeal.Gen Cert.ReferenceIdeal.Read Idealize.ShloMosaic Idealize.ShloMosaic.ValueIdx Cert.Conv

/-- The image, the masked weights' two factors and a slice, as plain functions of an index. -/
abbrev ImgT : Type := (⟨S2x96x224x224, .f32⟩ : BufTy).Contents (Elt Ideal)
abbrev WgtT : Type := (⟨S96x864, .f32⟩ : BufTy).Contents (Elt Ideal)
abbrev SliceT : Type := (⟨S2x96x222x222, .f32⟩ : BufTy).Contents (Elt Ideal)

/-- The nine slices of the image: slice `n` is tap (n / 3, n % 3). -/
def piece (x0 : ImgT) : Fin 9 → SliceT :=
  ![val_main_v0 (F := Ideal) x0, val_main_v1 (F := Ideal) x0, val_main_v2 (F := Ideal) x0,
    val_main_v3 (F := Ideal) x0, val_main_v4 (F := Ideal) x0, val_main_v5 (F := Ideal) x0,
    val_main_v6 (F := Ideal) x0, val_main_v7 (F := Ideal) x0, val_main_v8 (F := Ideal) x0]

/-- The patch matrix before its transposition is the concatenation of the nine slices along the channel axis. -/
theorem val_main_v9_eq (x0 : ImgT) :
    val_main_v9 (F := Ideal) x0
      = concatenate S2x864x222x222 1 (List.ofFn fun n : Fin 9 => (⟨S2x96x222x222, piece x0 n⟩ : (s : Shape) × (s.Idx → Elt Ideal .f32)))
          concatenates_S2x96x222x222_S2x96x222x222_S2x96x222x222_S2x96x222x222_S2x96x222x222_S2x96x222x222_S2x96x222x222_S2x96x222x222_S2x96x222x222_S2x864x222x222_d1 := rfl

/-- Slice `n` at (b, ch, r, c) is the image at (b, ch, r + n / 3, c + n % 3). -/
theorem piece_apply (x0 : ImgT) (n : Fin 9) (b : Fin 2) (ch : Fin 96) (r c : Fin 222) :
    piece x0 n (ix4 b ch r c)
      = x0 (ix4 b ch ⟨r.val + n.val / 3, by have := n.isLt; have := r.isLt; omega⟩ ⟨c.val + n.val % 3, by have := c.isLt; omega⟩) := by
  match n with
  | ⟨0, _⟩ => exact (val_main_v0_apply x0 _).trans (congrArg x0 (funext fun a => match a with
      | ⟨0, _⟩ => rfl | ⟨1, _⟩ => rfl | ⟨2, _⟩ => Fin.ext (by show r.val = r.val + 0 / 3; omega) | ⟨3, _⟩ => Fin.ext (by show c.val = c.val + 0 % 3; omega)))
  | ⟨1, _⟩ => exact (val_main_v1_apply x0 _).trans (congrArg x0 (funext fun a => match a with
      | ⟨0, _⟩ => rfl | ⟨1, _⟩ => rfl | ⟨2, _⟩ => Fin.ext (by show r.val = r.val + 1 / 3; omega) | ⟨3, _⟩ => Fin.ext (by show 1 + c.val = c.val + 1 % 3; omega)))
  | ⟨2, _⟩ => exact (val_main_v2_apply x0 _).trans (congrArg x0 (funext fun a => match a with
      | ⟨0, _⟩ => rfl | ⟨1, _⟩ => rfl | ⟨2, _⟩ => Fin.ext (by show r.val = r.val + 2 / 3; omega) | ⟨3, _⟩ => Fin.ext (by show 2 + c.val = c.val + 2 % 3; omega)))
  | ⟨3, _⟩ => exact (val_main_v3_apply x0 _).trans (congrArg x0 (funext fun a => match a with
      | ⟨0, _⟩ => rfl | ⟨1, _⟩ => rfl | ⟨2, _⟩ => Fin.ext (by show 1 + r.val = r.val + 3 / 3; omega) | ⟨3, _⟩ => Fin.ext (by show c.val = c.val + 3 % 3; omega)))
  | ⟨4, _⟩ => exact (val_main_v4_apply x0 _).trans (congrArg x0 (funext fun a => match a with
      | ⟨0, _⟩ => rfl | ⟨1, _⟩ => rfl | ⟨2, _⟩ => Fin.ext (by show 1 + r.val = r.val + 4 / 3; omega) | ⟨3, _⟩ => Fin.ext (by show 1 + c.val = c.val + 4 % 3; omega)))
  | ⟨5, _⟩ => exact (val_main_v5_apply x0 _).trans (congrArg x0 (funext fun a => match a with
      | ⟨0, _⟩ => rfl | ⟨1, _⟩ => rfl | ⟨2, _⟩ => Fin.ext (by show 1 + r.val = r.val + 5 / 3; omega) | ⟨3, _⟩ => Fin.ext (by show 2 + c.val = c.val + 5 % 3; omega)))
  | ⟨6, _⟩ => exact (val_main_v6_apply x0 _).trans (congrArg x0 (funext fun a => match a with
      | ⟨0, _⟩ => rfl | ⟨1, _⟩ => rfl | ⟨2, _⟩ => Fin.ext (by show 2 + r.val = r.val + 6 / 3; omega) | ⟨3, _⟩ => Fin.ext (by show c.val = c.val + 6 % 3; omega)))
  | ⟨7, _⟩ => exact (val_main_v7_apply x0 _).trans (congrArg x0 (funext fun a => match a with
      | ⟨0, _⟩ => rfl | ⟨1, _⟩ => rfl | ⟨2, _⟩ => Fin.ext (by show 2 + r.val = r.val + 7 / 3; omega) | ⟨3, _⟩ => Fin.ext (by show 1 + c.val = c.val + 7 % 3; omega)))
  | ⟨8, _⟩ => exact (val_main_v8_apply x0 _).trans (congrArg x0 (funext fun a => match a with
      | ⟨0, _⟩ => rfl | ⟨1, _⟩ => rfl | ⟨2, _⟩ => Fin.ext (by show 2 + r.val = r.val + 8 / 3; omega) | ⟨3, _⟩ => Fin.ext (by show 2 + c.val = c.val + 8 % 3; omega)))

/-- The concatenation at patch column `k`: slice `k / 96` at channel `k % 96`. -/
theorem val_main_v9_apply (x0 : ImgT) (b : Fin 2) (k : Fin 864) (r c : Fin 222) :
    val_main_v9 (F := Ideal) x0 (ix4 b k r c)
      = piece x0 ⟨k.val / 96, by have := k.isLt; omega⟩ (ix4 b ⟨k.val % 96, Nat.mod_lt _ (by decide)⟩ r c) := by
  rw [val_main_v9_eq]
  refine concatenate_ofFn_apply (1 : Fin S2x864x222x222.rank) (piece x0) _ rfl 96 rfl (ix4 b k r c) ⟨k.val / 96, by have := k.isLt; omega⟩ rfl
    (ix4 b ⟨k.val % 96, Nat.mod_lt _ (by decide)⟩ r c) rfl ?_
  intro a ha
  match a, ha with
  | ⟨0, _⟩, _ => rfl
  | ⟨1, _⟩, ha => exact absurd rfl ha
  | ⟨2, _⟩, _ => rfl
  | ⟨3, _⟩, _ => rfl

/-- The weight index the dot product reads for output pixel (b, f, r, c) at patch column `k`: row `f`, since the
    flat position ((f·2 + b)·222 + r)·222 + c over 98568 = 2·222·222 is `f`. -/
theorem lidx_eq (b : Fin 2) (f : Fin 96) (r c : Fin 222) (k : Fin 864) :
    lidx_main_v13 (idx_main_v14 (idx_main_v15 (ix4 b f r c))) k = ix2 f k := by
  funext a
  match a with
  | ⟨0, _⟩ =>
    refine Fin.ext ?_
    show (((f.val * 2 + b.val) * 222 + r.val) * 222 + c.val) / 98568 = f.val
    have := b.isLt; have := r.isLt; have := c.isLt
    omega
  | ⟨1, _⟩ => rfl

/-- The patch-matrix element the dot product reads: batch `b`, patch column `k`, pixel (r, c), the flat column
    ((f·2 + b)·222 + r)·222 + c modulo 98568 being (b·222 + r)·222 + c. -/
theorem ridx_eq (b : Fin 2) (f : Fin 96) (r c : Fin 222) (k : Fin 864) :
    idx_main_v10 (idx_main_v11 (ridx_main_v13 (idx_main_v14 (idx_main_v15 (ix4 b f r c))) k)) = ix4 b k r c := by
  have hb := b.isLt; have hr := r.isLt; have hc := c.isLt; have hk := k.isLt; have hf := f.isLt
  funext a
  match a with
  | ⟨0, _⟩ =>
    refine Fin.ext ?_
    show (k.val * 98568 + (((f.val * 2 + b.val) * 222 + r.val) * 222 + c.val) % 98568) / 49284 % 2 = b.val
    omega
  | ⟨1, _⟩ =>
    refine Fin.ext ?_
    show (k.val * 98568 + (((f.val * 2 + b.val) * 222 + r.val) * 222 + c.val) % 98568) / 98568 = k.val
    omega
  | ⟨2, _⟩ =>
    refine Fin.ext ?_
    show (k.val * 98568 + (((f.val * 2 + b.val) * 222 + r.val) * 222 + c.val) % 98568) / 222 % 222 = r.val
    omega
  | ⟨3, _⟩ =>
    refine Fin.ext ?_
    show (k.val * 98568 + (((f.val * 2 + b.val) * 222 + r.val) * 222 + c.val) % 98568) % 222 = c.val
    omega

/-- The patch matrix at (b, k, r, c) is the image element tap `k` reads. -/
theorem patch_apply (x0 : ImgT) (b : Fin 2) (k : Fin 864) (r c : Fin 222) :
    val_main_v9 (F := Ideal) x0 (ix4 b k r c) = x0 (xIdx b r c k) := by
  rw [val_main_v9_apply, piece_apply]
  refine congrArg x0 ?_
  have hk := k.isLt
  funext a
  match a with
  | ⟨0, _⟩ => rfl
  | ⟨1, _⟩ => rfl
  | ⟨2, _⟩ =>
    refine Fin.ext ?_
    show r.val + k.val / 96 / 3 = r.val + k.val / 288
    omega
  | ⟨3, _⟩ => rfl

/-- The reference's result at (b, f, r, c) is the correlation there. -/
theorem val_at (x0 : ImgT) (x1 x2 : WgtT) (b : Fin 2) (f : Fin 96) (r c : Fin 222) :
    val_main_v15 (F := Ideal) x0 x1 x2 (ix4 b f r c) = convAt x0 x1 x2 b f r c := by
  rw [val_main_v15_apply, val_main_v14_apply, val_main_v13_apply]
  unfold convAt
  refine Finset.sum_congr rfl fun k _ => ?_
  rw [val_main_v12_apply, val_main_v11_apply, val_main_v10_apply, lidx_eq, ridx_eq, patch_apply]
  rfl

theorem val_eq_conv (x0 : (⟨Cert.ReferenceIdeal.S2x96x224x224, .f32⟩ : BufTy).Contents (Elt Ideal)) (x1 x2 : (⟨Cert.ReferenceIdeal.S96x864, .f32⟩ : BufTy).Contents (Elt Ideal)) :
    Cert.ReferenceIdeal.Read.val_main_v15 (F := Ideal) x0 x1 x2 = Cert.Conv.conv x0 x1 x2 := by
  funext o
  rw [eq_ix4 o]
  exact val_at x0 x1 x2 (o 0) (o 1) (o 2) (o 3)

end Cert.ReferenceIdeal.RefG

end
-- ==== Proof.lean ====
/-
  The certificate of a 3x3 "valid" correlation with a masked dense weight: a Pallas kernel that builds each row
  block's patch matrix in VMEM from lane-rolls of a flat slab (a main block of the channel planes plus a 512-word
  tail block of the same array) and multiplies once on the matrix unit, against jnp's patches-then-matmul. Three
  frames, the empty idealization ledger, and the equality of the two idealized programs' results over the extended
  reals: both are, at every output pixel, the sum over the 864 patch columns of (weight · mask) · (image tap).
-/
import proofs.«180027_g33251636806221_cont_8to1_b_887_19_alg».proof.Defs
import proofs.«180027_g33251636806221_cont_8to1_b_887_19_alg».proof.Proof.Gen.Kernel
import proofs.«180027_g33251636806221_cont_8to1_b_887_19_alg».proof.Proof.Gen.KernelIdeal
import proofs.«180027_g33251636806221_cont_8to1_b_887_19_alg».proof.Proof.Gen.ReferenceIdeal
import proofs.«180027_g33251636806221_cont_8to1_b_887_19_alg».proof.Proof.Gen.Pre_finite_inputs
import proofs.«180027_g33251636806221_cont_8to1_b_887_19_alg».proof.Proof.KFrame
import proofs.«180027_g33251636806221_cont_8to1_b_887_19_alg».proof.Proof.KIFrame
import proofs.«180027_g33251636806221_cont_8to1_b_887_19_alg».proof.Proof.KIValue
import proofs.«180027_g33251636806221_cont_8to1_b_887_19_alg».proof.Proof.RefG
import Idealize.ShloMosaic.Adequacy
import Idealize.ShloMosaic.Init

noncomputable section

namespace Cert.Proof

open Idealize.ShloMosaic Idealize.SL.Sem

/-- The printed kernel runs to the end and leaves its arguments as they were. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals both programs end with the 3x3 valid correlation of the image with the masked weights:
    the kernel tile by tile (each tile entry the weights' row against a patch column of the point's flat slab), the
    reference as one product with the matrix of all patches. The two are the same sum of the same 864 products at
    every pixel, so nothing is asked of the inputs. -/
theorem algebraic : Cert.algebraic_KernelIdeal_ReferenceIdeal := by
  intro m ρ m' ρ' _ hagree
  refine ⟨fun c => Cert.KernelIdeal.HandValue.G m c, ?_, ?_⟩
  · exact (θ_run Cert.KernelIdeal.defs _ _).mono
      (fun r h c => ⟨(h c).1.trans (Cert.KernelIdeal.HandValue.final_eq m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.RefG.val_eq_conv, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
